-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_arg17 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg14 : FVec F S64 .f32) (main_arg15 : FVec F S64 .f32) (main_arg16 : FVec F S64 .f32) (main_arg17 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_v63 main_v67

def fn_part2 {F : FTy → Type} [FloatOps F] (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg14 main_arg15 main_arg16 main_arg17 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : FVec F S1000000x64 .f32) (main_arg2 : IVec S1000000 32) (main_arg3 : IVec S1000000 32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S64 .f32) (main_arg17 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S1000000x1 : Shape := ⟨2, ![1000000, 1]⟩
abbrev S1x64 : Shape := ⟨2, ![1, 64]⟩
abbrev S1000000x128 : Shape := ⟨2, ![1000000, 128]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S100000x128 : Shape := ⟨2, ![100000, 128]⟩
abbrev S10000x64 : Shape := ⟨2, ![10000, 64]⟩
abbrev S10000 : Shape := ⟨1, ![10000]⟩
abbrev S10000x1 : Shape := ⟨2, ![10000, 1]⟩

abbrev nBuf : Space → Nat
  | .hbm => 54
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1000000x64, .f32⟩
  | .hbm, ⟨43, _⟩ => ⟨S1000000x128, .f32⟩
  | .hbm, ⟨44, _⟩ => ⟨S_, .f32⟩
  | .hbm, ⟨45, _⟩ => ⟨S100000x128, .f32⟩
  | .hbm, ⟨46, _⟩ => ⟨S1000000x1, .i32⟩
  | .hbm, ⟨47, _⟩ => ⟨S100000x128, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x128, .f32⟩
  | .local _ .vmem, ⟨19, _⟩ => ⟨S5000x128, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20_0 : Ref sig .tc := ⟨.hbm, 42, rfl⟩
abbrev main_v20_1 : Ref sig .tc := ⟨.hbm, 43, rfl⟩
abbrev main_cst : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  concatenates_S5000x64_S5000x64_S5000x128_d1 : Shape.Concatenates [S5000x64, S5000x64] S5000x128 1
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  slices_S100000x128_S100000x64_0_0 : S100000x128.Slices ![0, 0] S100000x64
  slices_S100000x128_S100000x64_0_64 : S100000x128.Slices ![0, 64] S100000x64
  inb_S10000x64_S10000x64_0_0 : ∀ a, (![0, 0] : Fin 2 → Nat) a + S10000x64.size a ≤ S10000x64.size a
  h_S10000x64 : 0 < S10000x64.numel
  broadcasts_S1x64_S10000x64 : S1x64.Broadcasts S10000x64
  shapeCasts_S10000x64_S10000x64 : S10000x64.ShapeCasts S10000x64
  reduces_S10000x64_S10000 : S10000x64.Reduces [1] S10000
  shapeCasts_S10000_S10000x1 : S10000.ShapeCasts S10000x1
  broadcasts_S10000x1_S10000x64 : S10000x1.Broadcasts S10000x64
  gather_S100000x64_S1000000x1_S1000000x64_1_0_n_n_0_1_164_wf : GatherDims.WF S100000x64 S1000000x1 S1000000x64 [1] [0] [] [0] [] 1 ![1, 64]
  dot_S5000x64_S64x64_S5000x64_1_0_0_1_n_n_wf : DotDims.WF S5000x64 S64x64 S5000x64 [1] [0] [0] [1] [] []
  scatter_S100000x128_S1000000x1_S1000000x128_1_0_0_1_wf : ScatterDims.WF S100000x128 S1000000x1 S1000000x128 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S1000000x64.size a
  hwx0_0 : ∀ i : grid0.Coords, EltTy.bits .f32 = 32 ∨ (Rect.block (s := S1000000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S1000000x64.size a
  hwx0_1 : ∀ i : grid0.Coords, EltTy.bits .f32 = 32 ∨ (Rect.block (s := S1000000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S1000000x64.size a
  hwx0_2 : ∀ i : grid0.Coords, EltTy.bits .f32 = 32 ∨ (Rect.block (s := S1000000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x64.size a ≤ S1000000x64.size a
  hwx0_13 : ∀ i : grid0.Coords, EltTy.bits .f32 = 32 ∨ (Rect.block (s := S1000000x64) S5000x64.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x128.size a ≤ S1000000x128.size a
  hwx0_14 : ∀ i : grid0.Coords, EltTy.bits .f32 = 32 ∨ (Rect.block (s := S1000000x128) S5000x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v17) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v18) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20_0) S5000x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_1) S5000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1000000x1 : Shape := ⟨2, ![1000000, 1]⟩
abbrev S100000 : Shape := ⟨1, ![100000]⟩
abbrev S100000x1 : Shape := ⟨2, ![100000, 1]⟩

abbrev nBuf : Space → Nat
  | .hbm => 148
  | .vmem => 0
  | .smem => 0
  | _ => 0

abbrev hbmTy0_0 (i : Nat) : BufTy := match i % 128 with
  | 0 => ⟨S100000x64, .f32⟩
  | 1 => ⟨S1000000x64, .f32⟩
  | 2 => ⟨S1000000, .i32⟩
  | 3 => ⟨S1000000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S64, .f32⟩
  | 17 => ⟨S64, .f32⟩
  | 18 => ⟨S100000x64, .f32⟩
  | 19 => ⟨S1x64, .f32⟩
  | 20 => ⟨S100000x64, .f32⟩
  | 21 => ⟨S100000x64, .f32⟩
  | 22 => ⟨S100000x64, .f32⟩
  | 23 => ⟨S1x64, .f32⟩
  | 24 => ⟨S100000x64, .f32⟩
  | 25 => ⟨S100000x64, .f32⟩
  | 26 => ⟨S_, .i32⟩
  | 27 => ⟨S1000000, .i32⟩
  | 28 => ⟨S1000000, .i1⟩
  | 29 => ⟨S_, .i32⟩
  | 30 => ⟨S1000000, .i32⟩
  | 31 => ⟨S1000000, .i32⟩
  | 32 => ⟨S1000000, .i32⟩
  | 33 => ⟨S1000000x1, .i32⟩
  | 34 => ⟨S1000000x64, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x64, .f32⟩
  | 45 => ⟨S1000000x64, .f32⟩
  | 46 => ⟨S1000000x64, .f32⟩
  | 47 => ⟨S1x64, .f32⟩
  | 48 => ⟨S1000000x64, .f32⟩
  | 49 => ⟨S1000000x64, .f32⟩
  | 50 => ⟨S1000000x64, .f32⟩
  | 51 => ⟨S1000000x64, .f32⟩
  | 52 => ⟨S_, .f32⟩
  | 53 => ⟨S1000000x64, .f32⟩
  | 54 => ⟨S1000000x64, .f32⟩
  | 55 => ⟨S_, .f32⟩
  | 56 => ⟨S1000000x64, .f32⟩
  | 57 => ⟨S1000000x64, .f32⟩
  | 58 => ⟨S1000000x64, .f32⟩
  | 59 => ⟨S_, .f32⟩
  | 60 => ⟨S1000000, .f32⟩
  | 61 => ⟨S1000000x1, .f32⟩
  | 62 => ⟨S_, .f32⟩
  | 63 => ⟨S1000000x1, .f32⟩
  | 64 => ⟨S1000000x1, .f32⟩
  | 65 => ⟨S1000000x64, .f32⟩
  | 66 => ⟨S1000000x64, .f32⟩
  | 67 => ⟨S1000000x64, .f32⟩
  | 68 => ⟨S_, .f32⟩
  | 69 => ⟨S1000000, .f32⟩
  | 70 => ⟨S1000000x1, .f32⟩
  | 71 => ⟨S_, .f32⟩
  | 72 => ⟨S1000000x1, .f32⟩
  | 73 => ⟨S1000000x1, .f32⟩
  | 74 => ⟨S1000000x64, .f32⟩
  | 75 => ⟨S1000000x64, .f32⟩
  | 76 => ⟨S_, .f32⟩
  | 77 => ⟨S1000000x1, .f32⟩
  | 78 => ⟨S1000000x1, .f32⟩
  | 79 => ⟨S1000000x1, .f32⟩
  | 80 => ⟨S1000000x64, .f32⟩
  | 81 => ⟨S1000000x64, .f32⟩
  | 82 => ⟨S1x64, .f32⟩
  | 83 => ⟨S1000000x64, .f32⟩
  | 84 => ⟨S1000000x64, .f32⟩
  | 85 => ⟨S1x64, .f32⟩
  | 86 => ⟨S1000000x64, .f32⟩
  | 87 => ⟨S1000000x64, .f32⟩
  | 88 => ⟨S100000x64, .f32⟩
  | 89 => ⟨S1x64, .f32⟩
  | 90 => ⟨S100000x64, .f32⟩
  | 91 => ⟨S100000x64, .f32⟩
  | 92 => ⟨S_, .i32⟩
  | 93 => ⟨S1000000, .i32⟩
  | 94 => ⟨S1000000, .i1⟩
  | 95 => ⟨S_, .i32⟩
  | 96 => ⟨S1000000, .i32⟩
  | 97 => ⟨S1000000, .i32⟩
  | 98 => ⟨S1000000, .i32⟩
  | 99 => ⟨S1000000x1, .i32⟩
  | 100 => ⟨S1000000x64, .f32⟩
  | 101 => ⟨S1000000x64, .f32⟩
  | 102 => ⟨S_, .f32⟩
  | 103 => ⟨S100000x64, .f32⟩
  | 104 => ⟨S1000000x1, .i32⟩
  | 105 => ⟨S100000x64, .f32⟩
  | 106 => ⟨S_, .f32⟩
  | 107 => ⟨S100000x64, .f32⟩
  | 108 => ⟨S1000000x1, .i32⟩
  | 109 => ⟨S100000x64, .f32⟩
  | 110 => ⟨S_, .f32⟩
  | 111 => ⟨S100000x64, .f32⟩
  | 112 => ⟨S100000x64, .f32⟩
  | 113 => ⟨S100000x64, .f32⟩
  | 114 => ⟨S100000x64, .f32⟩
  | 115 => ⟨S1x64, .f32⟩
  | 116 => ⟨S100000x64, .f32⟩
  | 117 => ⟨S100000x64, .f32⟩
  | 118 => ⟨S100000x64, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x64, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x64, .f32⟩
  | 7 => ⟨S100000x64, .f32⟩
  | 8 => ⟨S_, .f32⟩
  | 9 => ⟨S100000x1, .f32⟩
  | 10 => ⟨S100000x1, .f32⟩
  | 11 => ⟨S100000x1, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_9 : Ref sig .tc := ⟨.hbm, 92, rfl⟩
abbrev main_v63 : Ref sig .tc := ⟨.hbm, 93, rfl⟩
abbrev main_v64 : Ref sig .tc := ⟨.hbm, 94, rfl⟩
abbrev main_c_10 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_12 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_13 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_14 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_16 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  dot_S1000000x64_S64x64_S1000000x64_1_0_0_1_n_n_wf : DotDims.WF S1000000x64 S64x64 S1000000x64 [1] [0] [0] [1] [] []
  scatter_S100000x64_S1000000x1_S1000000x64_1_0_0_1_wf : ScatterDims.WF S100000x64 S1000000x1 S1000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Spec.lean ====
/-
  The mathematics both programs compute, on one ROW of 64 extended reals at a time.

  An edge e with source row xs = X[s(e)], destination row xd = X[d(e)] and its own feature row ef:
    gate   g  = logistic((xs·Wsg + bsg) + (xd·Wdg + bdg) + (ef·Weg + beg))         (a row)
    edge output   = LayerNorm_{γe,βe}(g ⊙ ef)
    message       = (xs·Wdu + bdu) ⊙ g
  A node n with feature row x:
    node output   = LayerNorm_{γn,βn}((x·Wsu + bsu) + Σ_{e : dst e = n} message_e / (Σ_{e : dst e = n} g_e + 1e-8))
  LayerNorm of a row y is (y − μ)·rsqrt(σ² + 1e-5)·γ + β with μ = Σy/64 and σ² = Σ(y − μ)²/64.
  The three float literals are kept as the extended reals their 32-bit words denote; the two programs use the same words.
  Which row of X an edge reads is a function of ONE 32-bit index word (wrapped once by the axis length when negative,
  then clamped into the axis), and an edge contributes to node n's sums exactly when its destination word, read as a
  signed integer, is n.
-/
import Idealize.ShloMosaic.PureOps.Ideal
import Idealize.ShloMosaic.Lib.ValueIdx

noncomputable section

open scoped BigOperators

namespace EdgeGatedConv

open Idealize.ShloMosaic Idealize.ShloMosaic.ValueIdx

/-- A feature row. -/
abbrev Row : Type := Fin 64 → EReal
/-- A 64×64 weight, input coordinate first. -/
abbrev Mat : Type := Fin 64 → Fin 64 → EReal

/-- The literal 64, the literal nearest 1e-5, the literal nearest 1e-8 and the zero word, as extended reals. -/
def c64 : EReal := Ideal.ofBits .f32 0x42800000#32
def cEps : EReal := Ideal.ofBits .f32 0x3727C5AC#32
def cTiny : EReal := Ideal.ofBits .f32 0x322BCC77#32
def cZero : EReal := Ideal.ofBits .f32 0x00000000#32

/-- A row times a weight, plus a bias: `(x·W + b)_k = Σ_j x_j W_{jk} + b_k`. -/
def lin (W : Mat) (b : Row) (x : Row) : Row := fun k => (∑ j : Fin 64, x j * W j k) + b k

/-- The mean of a row: its sum divided by 64. -/
def mean (x : Row) : EReal := Ideal.div (∑ j : Fin 64, x j) c64

/-- LayerNorm of a row with scale γ and shift β. -/
def lnorm (γ β : Row) (x : Row) : Row := fun k =>
  ((x k - mean x) * Ideal.rsqrt (Ideal.div (∑ j : Fin 64, (x j - mean x) * (x j - mean x)) c64 + cEps)) * γ k + β k

/-- The edge gate: the logistic function of the three projections' sum. -/
def gate (Wsg : Mat) (bsg : Row) (Wdg : Mat) (bdg : Row) (Weg : Mat) (beg : Row) (xs xd ef : Row) : Row := fun k =>
  Ideal.logistic ((lin Wsg bsg xs k + lin Wdg bdg xd k) + lin Weg beg ef k)

/-- The edge output row: LayerNorm of the gated edge features. -/
def edgeRow (Wsg : Mat) (bsg : Row) (Wdg : Mat) (bdg : Row) (Weg : Mat) (beg : Row) (γ β : Row) (xs xd ef : Row) : Row :=
  lnorm γ β (fun j => gate Wsg bsg Wdg bdg Weg beg xs xd ef j * ef j)

/-- The message an edge sends: the source row's update projection times the gate. -/
def sigmaH (Wdu : Mat) (bdu : Row) (g : Row) (xs : Row) : Row := fun k => lin Wdu bdu xs k * g k

/-- The node output row from the node's own row and its two aggregated rows. -/
def nodeRow (Wsu : Mat) (bsu : Row) (γ β : Row) (x ssh ss : Row) : Row :=
  lnorm γ β (fun j => lin Wsu bsu x j + Ideal.div (ssh j) (ss j + cTiny))

/-! ## Index words -/

/-- A negative index word wraps once by the axis length 100000 (what numpy-style indexing does before the gather). -/
def wrapWord (s : BitVec 32) : BitVec 32 :=
  Scalar.select (IntOp.cmpi .slt s 0#32) (IntOp.addi s 100000#32) s

/-- The row of a 100000-row array a start-index word selects: read signed, clamped into the axis. -/
def rowOfWord (w : BitVec 32) : Fin 100000 := ⟨min w.toInt.toNat 99999, by omega⟩

/-- The sum over the edges whose destination word is node `n`, from the zero word. -/
def segSum (dst : Fin 1000000 → BitVec 32) (f : Fin 1000000 → EReal) (n : Fin 100000) : EReal :=
  cZero + ∑ e : Fin 1000000, if (dst e).toInt = (n.val : Int) then f e else 0

/-! ## Rows of arrays -/

abbrev SN : Shape := ⟨2, ![100000, 64]⟩
abbrev SE : Shape := ⟨2, ![1000000, 64]⟩
abbrev SW : Shape := ⟨2, ![64, 64]⟩
abbrev SV : Shape := ⟨1, ![64]⟩
abbrev SB : Shape := ⟨2, ![1, 64]⟩
abbrev SI1 : Shape := ⟨1, ![1000000]⟩

/-- Row `n` of a node array, row `e` of an edge array. -/
def rowN (A : SN.Idx → EReal) (n : Fin 100000) : Row := fun a => A (ix2 n a)
def rowE (A : SE.Idx → EReal) (e : Fin 1000000) : Row := fun a => A (ix2 e a)
/-- A weight array as a matrix; a bias as a row, from a `[64]` array or from its `[1, 64]` reshape. -/
def matOf (W : SW.Idx → EReal) : Mat := fun a b => W (ix2 a b)
def vecOf (b : SV.Idx → EReal) : Row := fun k => b (ix1 k)
def vec2Of (b : SB.Idx → EReal) : Row := fun k => b (ix2 (0 : Fin 1) k)
/-- An index array's word at an edge. -/
def wordOf (a : SI1.Idx → BitVec 32) : Fin 1000000 → BitVec 32 := fun e => a (ix1 e)

/-! ## The two results as functions of the eighteen argument arrays

  Arguments in the programs' order: X (node features), EF (edge features), src, dst, then Wsg bsg Wdg bdg Weg beg
  (the three gate projections), Wsu bsu (the node's own update projection), Wdu bdu (the message projection),
  γe βe (edge LayerNorm), γn βn (node LayerNorm). -/

/-- The gate row of edge `e`. -/
def gateAt (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (e : Fin 1000000) : Row :=
  gate (matOf Wsg) (vecOf bsg) (matOf Wdg) (vecOf bdg) (matOf Weg) (vecOf beg)
    (rowN X (rowOfWord (wrapWord (wordOf src e)))) (rowN X (rowOfWord (wrapWord (wordOf dst e)))) (rowE EF e)

/-- The edge output's row `e`. -/
def edgeOutAt (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (γe βe : SV.Idx → EReal) (e : Fin 1000000) : Row :=
  edgeRow (matOf Wsg) (vecOf bsg) (matOf Wdg) (vecOf bdg) (matOf Weg) (vecOf beg) (vecOf γe) (vecOf βe)
    (rowN X (rowOfWord (wrapWord (wordOf src e)))) (rowN X (rowOfWord (wrapWord (wordOf dst e)))) (rowE EF e)

/-- The message row of edge `e`. -/
def messageAt (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (Wdu : SW.Idx → EReal) (bdu : SV.Idx → EReal) (e : Fin 1000000) : Row :=
  sigmaH (matOf Wdu) (vecOf bdu) (gateAt X EF src dst Wsg bsg Wdg bdg Weg beg e)
    (rowN X (rowOfWord (wrapWord (wordOf src e))))

/-- The node output's row `n`. -/
def nodeOutAt (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (Wsu : SW.Idx → EReal) (bsu : SV.Idx → EReal)
    (Wdu : SW.Idx → EReal) (bdu : SV.Idx → EReal) (γn βn : SV.Idx → EReal) (n : Fin 100000) : Row :=
  nodeRow (matOf Wsu) (vecOf bsu) (vecOf γn) (vecOf βn) (rowN X n)
    (fun j => segSum (wordOf dst) (fun e => messageAt X EF src dst Wsg bsg Wdg bdg Weg beg Wdu bdu e j) n)
    (fun j => segSum (wordOf dst) (fun e => gateAt X EF src dst Wsg bsg Wdg bdg Weg beg e j) n)

/-- The edge output as an array. -/
def edgeOut (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (γe βe : SV.Idx → EReal) : SE.Idx → EReal :=
  fun i => edgeOutAt X EF src dst Wsg bsg Wdg bdg Weg beg γe βe ⟨(i 0).val, idx2_lt0 i⟩ ⟨(i 1).val, idx2_lt1 i⟩

/-- The node output as an array. -/
def nodeOut (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (Wsu : SW.Idx → EReal) (bsu : SV.Idx → EReal)
    (Wdu : SW.Idx → EReal) (bdu : SV.Idx → EReal) (γn βn : SV.Idx → EReal) : SN.Idx → EReal :=
  fun i => nodeOutAt X EF src dst Wsg bsg Wdg bdg Weg beg Wsu bsu Wdu bdu γn βn ⟨(i 0).val, idx2_lt0 i⟩ ⟨(i 1).val, idx2_lt1 i⟩

theorem edgeOut_ix2 (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (γe βe : SV.Idx → EReal) (e : Fin 1000000) (k : Fin 64) :
    edgeOut X EF src dst Wsg bsg Wdg bdg Weg beg γe βe (ix2 e k) = edgeOutAt X EF src dst Wsg bsg Wdg bdg Weg beg γe βe e k := rfl

theorem nodeOut_ix2 (X : SN.Idx → EReal) (EF : SE.Idx → EReal) (src dst : SI1.Idx → BitVec 32)
    (Wsg : SW.Idx → EReal) (bsg : SV.Idx → EReal) (Wdg : SW.Idx → EReal) (bdg : SV.Idx → EReal)
    (Weg : SW.Idx → EReal) (beg : SV.Idx → EReal) (Wsu : SW.Idx → EReal) (bsu : SV.Idx → EReal)
    (Wdu : SW.Idx → EReal) (bdu : SV.Idx → EReal) (γn βn : SV.Idx → EReal) (n : Fin 100000) (k : Fin 64) :
    nodeOut X EF src dst Wsg bsg Wdg bdg Weg beg Wsu bsu Wdu bdu γn βn (ix2 n k)
      = nodeOutAt X EF src dst Wsg bsg Wdg bdg Weg beg Wsu bsu Wdu bdu γn βn n k := rfl

end EdgeGatedConv

end
-- ==== Proof.EdgeRegion.lean ====
/-
  The edge region's two output arrays, read at an index, as row functions of the arrays the region is entered with.

  The region runs over 200 blocks of 5000 edges; block t of an output array holds rows 5000·t … 5000·t + 4999, and the
  body computes each row of its block from the same row of its three edge-indexed input blocks and from the whole
  weight and bias blocks. So the array after the region is, row by row, the row function of the entry arrays' rows.
-/
import proofs.«420971_j2594160247294_3_alg».proof.Proof.Gen.KernelIdeal.Frame
import proofs.«420971_j2594160247294_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeRegion

open Cert.KernelIdeal Cert.KernelIdeal.Gen Idealize.ShloMosaic Idealize.ShloMosaic.TcCoe Idealize.SL.Sem
open Idealize.ShloMosaic.ValueIdx EdgeGatedConv

variable (V : (c : Dev nD) → (b : Ref sig .tc) → Buf (Elt Ideal) ((c : Thread nD τ).loc b))

/-- The gate row of edge `e` from the region's entry arrays. -/
def gateV (c : Dev nD) (e : Fin 1000000) : Row :=
  gate (matOf (V c main_arg4)) (vec2Of (V c main_v14)) (matOf (V c main_arg6)) (vec2Of (V c main_v15))
    (matOf (V c main_arg8)) (vec2Of (V c main_v16))
    (rowE (V c main_v6) e) (rowE (V c main_v13) e) (rowE (V c main_arg1) e)

/-! ## Rows of a block -/

/-- Row `p` of an array with 64 columns. -/
def rowOf {n : Nat} (x : (⟨2, ![n, 64]⟩ : Shape).Idx → EReal) (p : Fin n) : Row := fun a => x (ix2 p a)

/-! ## The product of a block's rows with a weight -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block's product with a weight into a zero accumulator, at `(p, q)`: row `p` of the block against column `q`. -/
theorem matmul_at (x : FVec Ideal S5000x64 .f32) (w : FVec Ideal S64x64 .f32) (p : Fin 5000) (q : Fin 64) :
    matmul dot_S5000x64_S64x64_S5000x64_1_0_0_1_n_n none x w (constant (F := Ideal) S5000x64 .f32 0x00000000#32) (ix2 p q)
      = ∑ j : Fin 64, x (ix2 p j) * w (ix2 j q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- A block's rows through a weight plus a bias row broadcast down the block, at `(p, q)`. -/
theorem lin_at (x : FVec Ideal S5000x64 .f32) (w : FVec Ideal S64x64 .f32) (b : FVec Ideal S1x64 .f32)
    (hb : S1x64.Broadcasts S5000x64) (p : Fin 5000) (q : Fin 64) :
    addf (matmul dot_S5000x64_S64x64_S5000x64_1_0_0_1_n_n none x w (constant (F := Ideal) S5000x64 .f32 0x00000000#32))
        (broadcastTo S5000x64 b hb) (ix2 p q)
      = lin (matOf w) (vec2Of b) (rowOf x p) q := by
  rw [addf_apply, matmul_at, broadcastTo_1b_ab_apply]
  rfl

/-! ## Lane sums and the keepdims column -/

/-- The sum along the lanes at row `p`. -/
theorem laneSum_at (x : FVec Ideal S5000x64 .f32) (h : S5000x64.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ j : Fin 64, x (ix2 p j) := by
  refine (Ideal.multiReduction_add_single x 0x00000000#32 h hφ hacc (ix1 p)).trans ?_
  refine Finset.sum_congr rfl fun j _ => congrArg x ?_
  funext c; apply Fin.ext
  match c with
  | ⟨0, _⟩ => rfl
  | ⟨1, _⟩ => rfl

/-- A vector of row values viewed as a column reads its row's value. -/
theorem column_at (v : (⟨1, ![5000]⟩ : Shape).Idx → EReal) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column broadcast along the lanes reads its row's value. -/
theorem columnBcast_at (v : (⟨2, ![5000, 1]⟩ : Shape).Idx → EReal) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show (0 : Nat) = if (1 : Nat) = 1 then 0 else q.val
    rw [if_pos rfl]

/-- The logistic function and the reciprocal square root act entrywise. -/
theorem logistic_at {s : Shape} (a : FVec Ideal s .f32) (i : s.Idx) : logistic a i = Ideal.logistic (a i) := rfl
theorem rsqrt_at {s : Shape} (a : FVec Ideal s .f32) (i : s.Idx) : rsqrt a i = Ideal.rsqrt (a i) := rfl

/-! ## The body's values at an entry of the block -/

/-- The gate block at `(p, q)`: the gate of row `p` of the three edge-indexed blocks. -/
theorem gate_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (p : Fin 5000) (q : Fin 64) :
    k0_pay4 (F := Ideal) x0 x1 x2 x3 x4 x5 x6 x7 x8 (ix2 p q)
      = gate (matOf x3) (vec2Of x4) (matOf x5) (vec2Of x6) (matOf x7) (vec2Of x8) (rowOf x0 p) (rowOf x1 p) (rowOf x2 p) q := by
  unfold k0_pay4 k0_pay3
  simp only [shapeCast_self]
  rw [logistic_at, addf_apply, addf_apply, lin_at, lin_at, lin_at]
  rfl

/-- The gated edge features at `(p, q)`. -/
theorem gated_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (p : Fin 5000) (q : Fin 64) :
    k0_pay5 (F := Ideal) x0 x1 x2 x3 x4 x5 x6 x7 x8 (ix2 p q)
      = gate (matOf x3) (vec2Of x4) (matOf x5) (vec2Of x6) (matOf x7) (vec2Of x8) (rowOf x0 p) (rowOf x1 p) (rowOf x2 p) q
          * rowOf x2 p q := by
  unfold k0_pay5
  rw [mulf_apply, gate_at]
  rfl

/-- The row of gated edge features that LayerNorm is taken of. -/
def gatedRow (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (p : Fin 5000) : Row := fun j =>
  gate (matOf x3) (vec2Of x4) (matOf x5) (vec2Of x6) (matOf x7) (vec2Of x8) (rowOf x0 p) (rowOf x1 p) (rowOf x2 p) j * rowOf x2 p j

/-- The column of row means at row `p`. -/
theorem mean_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (p : Fin 5000) (u : Fin 1) :
    k0_pay6 (F := Ideal) x0 x1 x2 x3 x4 x5 x6 x7 x8 (ix2 p u) = mean (gatedRow x0 x1 x2 x3 x4 x5 x6 x7 x8 p) := by
  unfold k0_pay6
  rw [divf_apply, column_at, laneSum_at, broadcast_apply]
  simp only [gated_at]
  rfl

/-- The lane sums of the squared deviations from the mean at row `p`. -/
theorem sqdev_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (p : Fin 5000) :
    k0_pay7 (F := Ideal) x0 x1 x2 x3 x4 x5 x6 x7 x8 (ix1 p)
      = ∑ j : Fin 64, (gatedRow x0 x1 x2 x3 x4 x5 x6 x7 x8 p j - mean (gatedRow x0 x1 x2 x3 x4 x5 x6 x7 x8 p))
          * (gatedRow x0 x1 x2 x3 x4 x5 x6 x7 x8 p j - mean (gatedRow x0 x1 x2 x3 x4 x5 x6 x7 x8 p)) := by
  unfold k0_pay7
  rw [laneSum_at]
  refine Finset.sum_congr rfl fun j _ => ?_
  rw [mulf_apply, subf_apply, columnBcast_at, mean_at, gated_at]
  rfl

/-- What the body stores to the edge output's block, at `(p, q)`: the edge output row of row `p`. -/
theorem edgePayload_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (x11 x12 : FVec Ideal S1x64 .f32) (p : Fin 5000) (q : Fin 64) :
    k0_pay1 (F := Ideal) (k0_pay5 (F := Ideal) x0 x1 x2 x3 x4 x5 x6 x7 x8) (k0_pay6 (F := Ideal) x0 x1 x2 x3 x4 x5 x6 x7 x8)
        (k0_pay7 (F := Ideal) x0 x1 x2 x3 x4 x5 x6 x7 x8) x11 x12 (ix2 p q)
      = edgeRow (matOf x3) (vec2Of x4) (matOf x5) (vec2Of x6) (matOf x7) (vec2Of x8) (vec2Of x11) (vec2Of x12)
          (rowOf x0 p) (rowOf x1 p) (rowOf x2 p) q := by
  unfold k0_pay1
  simp only [shapeCast_self]
  rw [addf_apply, mulf_apply, mulf_apply, subf_apply, broadcastTo_1b_ab_apply, broadcastTo_1b_ab_apply,
    columnBcast_at, columnBcast_at, rsqrt_at, addf_apply, divf_apply, column_at, broadcast_apply, broadcast_apply,
    gated_at, mean_at, sqdev_at]
  rfl

/-! ## The concatenated block -/

/-- Two 64-column blocks side by side: columns 0 … 63 read the first … -/
theorem cat_lo_at (a b : FVec Ideal S5000x64 .f32) (h : Shape.Concatenates [S5000x64, S5000x64] S5000x128 1)
    (p : Fin 5000) (k : Fin 64) (k' : Fin 128) (hk : k'.val = k.val) :
    concatenate S5000x128 1 [⟨S5000x64, a⟩, ⟨S5000x64, b⟩] h (ix2 p k') = a (ix2 p k) :=
  concatenate_pair_apply_left (1 : Fin S5000x128.rank) a b h (ix2 p k') rfl (ix2 p k) fun ax => by
    match ax with
    | ⟨0, _⟩ => rfl
    | ⟨1, _⟩ => exact hk.symm

/-- … and columns 64 … 127 the second. -/
theorem cat_hi_at (a b : FVec Ideal S5000x64 .f32) (h : Shape.Concatenates [S5000x64, S5000x64] S5000x128 1)
    (p : Fin 5000) (k : Fin 64) (k' : Fin 128) (hk : k'.val = 64 + k.val) :
    concatenate S5000x128 1 [⟨S5000x64, a⟩, ⟨S5000x64, b⟩] h (ix2 p k') = b (ix2 p k) :=
  concatenate_pair_apply_right (1 : Fin S5000x128.rank) a b h (ix2 p k') rfl rfl (ix2 p k)
    (fun ax hax => by
      match ax with
      | ⟨0, _⟩ => rfl
      | ⟨1, _⟩ => exact absurd rfl hax)
    (by show k.val + 64 = k'.val; omega)

/-- What the body stores to the concatenated output's block, at `(p, k)` with `k` among the first 64 columns: the message. -/
theorem catPayload_lo_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (x9 : FVec Ideal S64x64 .f32) (x10 : FVec Ideal S1x64 .f32) (p : Fin 5000) (k : Fin 64) (k' : Fin 128) (hk : k'.val = k.val) :
    k0_pay2 (F := Ideal) (k0_pay3 (F := Ideal) x0) (k0_pay4 (F := Ideal) x0 x1 x2 x3 x4 x5 x6 x7 x8) x9 x10 (ix2 p k')
      = sigmaH (matOf x9) (vec2Of x10)
          (gate (matOf x3) (vec2Of x4) (matOf x5) (vec2Of x6) (matOf x7) (vec2Of x8) (rowOf x0 p) (rowOf x1 p) (rowOf x2 p))
          (rowOf x0 p) k := by
  unfold k0_pay2 k0_pay3
  simp only [shapeCast_self]
  rw [cat_lo_at _ _ _ p k k' hk, mulf_apply, lin_at, gate_at]
  rfl

/-- … and at `(p, 64 + k)`: the gate. -/
theorem catPayload_hi_at (x0 x1 x2 : FVec Ideal S5000x64 .f32) (x3 : FVec Ideal S64x64 .f32) (x4 : FVec Ideal S1x64 .f32)
    (x5 : FVec Ideal S64x64 .f32) (x6 : FVec Ideal S1x64 .f32) (x7 : FVec Ideal S64x64 .f32) (x8 : FVec Ideal S1x64 .f32)
    (x9 : FVec Ideal S64x64 .f32) (x10 : FVec Ideal S1x64 .f32) (p : Fin 5000) (k : Fin 64) (k' : Fin 128) (hk : k'.val = 64 + k.val) :
    k0_pay2 (F := Ideal) (k0_pay3 (F := Ideal) x0) (k0_pay4 (F := Ideal) x0 x1 x2 x3 x4 x5 x6 x7 x8) x9 x10 (ix2 p k')
      = gate (matOf x3) (vec2Of x4) (matOf x5) (vec2Of x6) (matOf x7) (vec2Of x8) (rowOf x0 p) (rowOf x1 p) (rowOf x2 p) k := by
  unfold k0_pay2
  rw [cat_hi_at _ _ _ p k k' hk, gate_at]

/-! ## From blocks to the arrays -/

theorem zero_offsets : (![0, 0] : Fin 2 → Nat) = fun _ => 0 := funext fun a => by fin_cases a <;> rfl

/-- The block maps over the grid: the three edge-indexed inputs and the two outputs move together, one block of rows per
    point and always at column block 0; the weights and biases stay at their one block. -/
theorem index_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_2.index t (0 : Fin 2) = win0_13.index t (0 : Fin 2) ∧ win0_2.index t (1 : Fin 2) = 0
    ∧ win0_13.index t (0 : Fin 2) < 200 ∧ win0_13.index t (1 : Fin 2) = 0
    ∧ win0_14.index t (0 : Fin 2) = win0_13.index t (0 : Fin 2) ∧ win0_14.index t (1 : Fin 2) = 0 :=
  (by decide +kernel : ∀ t : Fin grid0.N, _)

theorem whole_facts : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- Every block of rows is some point's. -/
theorem index_onto : ∀ q0 : Fin 200, ∃ t : Fin cfg0.N, win0_13.index t = ![q0.val, 0] :=
  (by decide +kernel : ∀ q0 : Fin 200, ∃ t : Fin grid0.N, win0_13.index t = ![q0.val, 0])

/-- Row `p` of an edge-indexed input block at point `t` is row `5000·(block index) + p` of its array. -/
theorem srcRow_block (c : Dev nD) (t : Fin cfg0.N) (p : Fin 5000) (r : Fin 1000000)
    (hr : r.val = win0_13.index t (0 : Fin 2) * 5000 + p.val) :
    rowOf (iblk0 (F := Ideal) V c 0 t) p = rowE (V c main_v6) r := by
  obtain ⟨e0, e0', -⟩ := index_facts t
  funext a
  show V c main_v6 (((cfg0.win 0).blk t).view.emb (ix2 p a)) = V c main_v6 (ix2 r a)
  refine congrArg _ (funext fun ax => Fin.ext ?_)
  match ax with
  | ⟨0, _⟩ => show win0_0.index t (0 : Fin 2) * 5000 + 1 * p.val = r.val; omega
  | ⟨1, _⟩ => show win0_0.index t (1 : Fin 2) * 64 + 1 * a.val = a.val; omega

theorem dstRow_block (c : Dev nD) (t : Fin cfg0.N) (p : Fin 5000) (r : Fin 1000000)
    (hr : r.val = win0_13.index t (0 : Fin 2) * 5000 + p.val) :
    rowOf (iblk0 (F := Ideal) V c 1 t) p = rowE (V c main_v13) r := by
  obtain ⟨-, -, e1, e1', -⟩ := index_facts t
  funext a
  show V c main_v13 (((cfg0.win 1).blk t).view.emb (ix2 p a)) = V c main_v13 (ix2 r a)
  refine congrArg _ (funext fun ax => Fin.ext ?_)
  match ax with
  | ⟨0, _⟩ => show win0_1.index t (0 : Fin 2) * 5000 + 1 * p.val = r.val; omega
  | ⟨1, _⟩ => show win0_1.index t (1 : Fin 2) * 64 + 1 * a.val = a.val; omega

theorem featRow_block (c : Dev nD) (t : Fin cfg0.N) (p : Fin 5000) (r : Fin 1000000)
    (hr : r.val = win0_13.index t (0 : Fin 2) * 5000 + p.val) :
    rowOf (iblk0 (F := Ideal) V c 2 t) p = rowE (V c main_arg1) r := by
  obtain ⟨-, -, -, -, e2, e2', -⟩ := index_facts t
  funext a
  show V c main_arg1 (((cfg0.win 2).blk t).view.emb (ix2 p a)) = V c main_arg1 (ix2 r a)
  refine congrArg _ (funext fun ax => Fin.ext ?_)
  match ax with
  | ⟨0, _⟩ => show win0_2.index t (0 : Fin 2) * 5000 + 1 * p.val = r.val; omega
  | ⟨1, _⟩ => show win0_2.index t (1 : Fin 2) * 64 + 1 * a.val = a.val; omega

/-- A weight's block at any point is the whole weight. -/
theorem weight3_block (c : Dev nD) (t : Fin cfg0.N) : matOf (iblk0 (F := Ideal) V c 3 t) = matOf (V c main_arg4) := by
  obtain ⟨⟨e, e'⟩, -⟩ := whole_facts t
  funext a b
  show V c main_arg4 (((cfg0.win 3).blk t).view.emb (ix2 a b)) = V c main_arg4 (ix2 a b)
  refine congrArg _ (funext fun ax => Fin.ext ?_)
  match ax with
  | ⟨0, _⟩ => show win0_3.index t (0 : Fin 2) * 64 + 1 * a.val = a.val; omega
  | ⟨1, _⟩ => show win0_3.index t (1 : Fin 2) * 64 + 1 * b.val = b.val; omega

theorem weight5_block (c : Dev nD) (t : Fin cfg0.N) : matOf (iblk0 (F := Ideal) V c 5 t) = matOf (V c main_arg6) := by
  obtain ⟨-, -, ⟨e, e'⟩, -⟩ := whole_facts t
  funext a b
  show V c main_arg6 (((cfg0.win 5).blk t).view.emb (ix2 a b)) = V c main_arg6 (ix2 a b)
  refine congrArg _ (funext fun ax => Fin.ext ?_)
  match ax with
  | ⟨0, _⟩ => show win0_5.index t (0 : Fin 2) * 64 + 1 * a.val = a.val; omega
  | ⟨1, _⟩ => show win0_5.index t (1 : Fin 2) * 64 + 1 * b.val = b.val; omega

theorem weight7_block (c : Dev nD) (t : Fin cfg0.N) : matOf (iblk0 (F := Ideal) V c 7 t) = matOf (V c main_arg8) := by
  obtain ⟨-, -, -, -, ⟨e, e'⟩, -⟩ := whole_facts t
  funext a b
  show V c main_arg8 (((cfg0.win 7).blk t).view.emb (ix2 a b)) = V c main_arg8 (ix2 a b)
  refine congrArg _ (funext fun ax => Fin.ext ?_)
  match ax with
  | ⟨0, _⟩ => show win0_7.index t (0 : Fin 2) * 64 + 1 * a.val = a.val; omega
  | ⟨1, _⟩ => show win0_7.index t (1 : Fin 2) * 64 + 1 * b.val = b.val; omega

/-- A bias row's block at any point is the whole row. -/
theorem bias4_block (c : Dev nD) (t : Fin cfg0.N) : vec2Of (iblk0 (F := Ideal) V c 4 t) = vec2Of (V c main_v14) := by
  obtain ⟨-, ⟨e, e'⟩, -⟩ := whole_facts t
  funext b
  show V c main_v14 (((cfg0.win 4).blk t).view.emb (ix2 (0 : Fin 1) b)) = V c main_v14 (ix2 (0 : Fin 1) b)
  refine congrArg _ (funext fun ax => Fin.ext ?_)
  match ax with
  | ⟨0, _⟩ => show win0_4.index t (0 : Fin 2) * 1 + 1 * 0 = 0; omega
  | ⟨1, _⟩ => show win0_4.index t (1 : Fin 2) * 64 + 1 * b.val = b.val; omega

theorem bias6_block (c : Dev nD) (t : Fin cfg0.N) : vec2Of (iblk0 (F := Ideal) V c 6 t) = vec2Of (V c main_v15) := by
  obtain ⟨-, -, -, ⟨e, e'⟩, -⟩ := whole_facts t
  funext b
  show V c main_v15 (((cfg0.win 6).blk t).view.emb (ix2 (0 : Fin 1) b)) = V c main_v15 (ix2 (0 : Fin 1) b)
  refine congrArg _ (funext fun ax => Fin.ext ?_)
  match ax with
  | ⟨0, _⟩ => show win0_6.index t (0 : Fin 2) * 1 + 1 * 0 = 0; omega
  | ⟨1, _⟩ => show win0_6.index t (1 : Fin 2) * 64 + 1 * b.val = b.val; omega

theorem bias8_block (c : Dev nD) (t : Fin cfg0.N) : vec2Of (iblk0 (F := Ideal) V c 8 t) = vec2Of (V c main_v16) := by
  obtain ⟨-, -, -, -, -, ⟨e, e'⟩, -⟩ := whole_facts t
  funext b
  show V c main_v16 (((cfg0.win 8).blk t).view.emb (ix2 (0 : Fin 1) b)) = V c main_v16 (ix2 (0 : Fin 1) b)
  refine congrArg _ (funext fun ax => Fin.ext ?_)
  match ax with
  | ⟨0, _⟩ => show win0_8.index t (0 : Fin 2) * 1 + 1 * 0 = 0; omega
  | ⟨1, _⟩ => show win0_8.index t (1 : Fin 2) * 64 + 1 * b.val = b.val; omega

theorem scale_block (c : Dev nD) (t : Fin cfg0.N) : vec2Of (iblk0 (F := Ideal) V c 11 t) = vec2Of (V c main_v18) := by
  obtain ⟨-, -, -, -, -, -, -, -, ⟨e, e'⟩, -⟩ := whole_facts t
  funext b
  show V c main_v18 (((cfg0.win 11).blk t).view.emb (ix2 (0 : Fin 1) b)) = V c main_v18 (ix2 (0 : Fin 1) b)
  refine congrArg _ (funext fun ax => Fin.ext ?_)
  match ax with
  | ⟨0, _⟩ => show win0_11.index t (0 : Fin 2) * 1 + 1 * 0 = 0; omega
  | ⟨1, _⟩ => show win0_11.index t (1 : Fin 2) * 64 + 1 * b.val = b.val; omega

theorem shift_block (c : Dev nD) (t : Fin cfg0.N) : vec2Of (iblk0 (F := Ideal) V c 12 t) = vec2Of (V c main_v19) := by
  obtain ⟨-, -, -, -, -, -, -, -, -, e, e'⟩ := whole_facts t
  funext b
  show V c main_v19 (((cfg0.win 12).blk t).view.emb (ix2 (0 : Fin 1) b)) = V c main_v19 (ix2 (0 : Fin 1) b)
  refine congrArg _ (funext fun ax => Fin.ext ?_)
  match ax with
  | ⟨0, _⟩ => show win0_12.index t (0 : Fin 2) * 1 + 1 * 0 = 0; omega
  | ⟨1, _⟩ => show win0_12.index t (1 : Fin 2) * 64 + 1 * b.val = b.val; omega

/-! ## The edge output -/

/-- The edge output array as a function of the entry arrays: row `i 0`, column `i 1` of the edge output rows. -/
def edgeArr (c : Dev nD) : S1000000x64.Idx → EReal := fun i =>
  edgeRow (matOf (V c main_arg4)) (vec2Of (V c main_v14)) (matOf (V c main_arg6)) (vec2Of (V c main_v15))
    (matOf (V c main_arg8)) (vec2Of (V c main_v16)) (vec2Of (V c main_v18)) (vec2Of (V c main_v19))
    (rowE (V c main_v6) ⟨(i 0).val, idx2_lt0 i⟩) (rowE (V c main_v13) ⟨(i 0).val, idx2_lt0 i⟩)
    (rowE (V c main_arg1) ⟨(i 0).val, idx2_lt0 i⟩) ⟨(i 1).val, idx2_lt1 i⟩

theorem edgeArr_apply (c : Dev nD) (i : S1000000x64.Idx) (r : Fin 1000000) (k : Fin 64) (h0 : (i 0).val = r.val) (h1 : (i 1).val = k.val) :
    edgeArr V c i = edgeRow (matOf (V c main_arg4)) (vec2Of (V c main_v14)) (matOf (V c main_arg6)) (vec2Of (V c main_v15))
      (matOf (V c main_arg8)) (vec2Of (V c main_v16)) (vec2Of (V c main_v18)) (vec2Of (V c main_v19))
      (rowE (V c main_v6) r) (rowE (V c main_v13) r) (rowE (V c main_arg1) r) k := by
  have e0 : (⟨(i 0).val, idx2_lt0 i⟩ : Fin 1000000) = r := Fin.ext h0
  have e1 : (⟨(i 1).val, idx2_lt1 i⟩ : Fin 64) = k := Fin.ext h1
  unfold edgeArr
  rw [e0, e1]

/-- What point `t` writes back to the edge output is block `t` of that array. -/
theorem edge_flushed (c : Dev nD) (t : Fin cfg0.N) :
    (dat0 (F := Ideal) V c).flushed 13 t = ((cfg0.win 13).blk t).view.read (Elt Ideal) (edgeArr V c) := by
  show (cfg0.win 13).cut (grid0.coords t) ((dat0 (F := Ideal) V c).after 13 t) = _
  rw [after0_13]
  unfold out0_13
  rw [View.canon_unit_zero zero_offsets]
  simp only [View.ld_unit_zero (S := S5000x64) zero_offsets, View.ld_unit_zero (S := S64x64) zero_offsets,
    View.ld_unit_zero (S := S1x64) zero_offsets]
  funext j
  obtain ⟨p, q, rfl⟩ : ∃ (p : Fin 5000) (q : Fin 64), j = ix2 p q := ⟨j 0, j 1, eq_ix2 j⟩
  obtain ⟨-, -, -, -, -, -, hlt, h1, -⟩ := index_facts t
  have hr : win0_13.index t (0 : Fin 2) * 5000 + p.val < 1000000 := by have := p.isLt; omega
  refine (edgePayload_at (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t) (iblk0 (F := Ideal) V c 6 t)
    (iblk0 (F := Ideal) V c 7 t) (iblk0 (F := Ideal) V c 8 t) (iblk0 (F := Ideal) V c 11 t) (iblk0 (F := Ideal) V c 12 t) p q).trans ?_
  rw [srcRow_block V c t p ⟨_, hr⟩ rfl, dstRow_block V c t p ⟨_, hr⟩ rfl, featRow_block V c t p ⟨_, hr⟩ rfl,
    weight3_block, weight5_block, weight7_block, bias4_block, bias6_block, bias8_block, scale_block, shift_block]
  refine (edgeArr_apply V c _ ⟨_, hr⟩ q ?_ ?_).symm
  · show win0_13.index t (0 : Fin 2) * 5000 + 1 * p.val = win0_13.index t (0 : Fin 2) * 5000 + p.val; omega
  · show win0_13.index t (1 : Fin 2) * 64 + 1 * q.val = q.val; omega

/-- An index of the edge output is in point `t`'s block iff each coordinate is in the block's range on its axis. -/
theorem mem_edge_block (t : Fin cfg0.N) (i : S1000000x64.Idx) :
    i ∈ ((cfg0.win 13).blk t).view.set ↔ ∀ a : Fin 2, win0_13.index t a * S5000x64.size a ≤ (i a).val
      ∧ (i a).val < win0_13.index t a * S5000x64.size a + S5000x64.size a := by
  show i ∈ ((View.whole main_v20_0).slice (win0_13.rect t)).set ↔ _
  rw [View.set_slice_whole, Rect.mem_set_unit]
  exact Iff.rfl

/-- The blocks of 5000 rows cover the edge output: row `r` is in the block of the point whose block index is `r / 5000`. -/
theorem edge_cover (i : S1000000x64.Idx) :
    ∃ t : Fin cfg0.N, (cfg0.win 13).flush t = true ∧ i ∈ ((cfg0.win 13).blk t).view.set := by
  have hi0 : (i 0).val < 1000000 := (i 0).isLt
  have hi1 : (i 1).val < 64 := (i 1).isLt
  obtain ⟨t, ht⟩ := index_onto ⟨(i 0).val / 5000, by omega⟩
  have q0 : win0_13.index t (0 : Fin 2) = (i 0).val / 5000 := congrFun ht 0
  have q1 : win0_13.index t (1 : Fin 2) = 0 := congrFun ht 1
  refine ⟨t, flush0_13 t, ?_⟩
  rw [mem_edge_block]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 64 ≤ (i 1).val ∧ (i 1).val < win0_13.index t (1 : Fin 2) * 64 + 64; omega

/-- The edge output after the region is that array. -/
theorem edge_array (c : Dev nD) : (dat0 (F := Ideal) V c).arrAt 13 cfg0.N = edgeArr V c :=
  (dat0 (F := Ideal) V c).arrAt_eq_of_cover 13 (edgeArr V c) (fun t _ => edge_flushed V c t) edge_cover

/-! ## The concatenated output -/

theorem weight9_block (c : Dev nD) (t : Fin cfg0.N) : matOf (iblk0 (F := Ideal) V c 9 t) = matOf (V c main_arg12) := by
  obtain ⟨-, -, -, -, -, -, ⟨e, e'⟩, -⟩ := whole_facts t
  funext a b
  show V c main_arg12 (((cfg0.win 9).blk t).view.emb (ix2 a b)) = V c main_arg12 (ix2 a b)
  refine congrArg _ (funext fun ax => Fin.ext ?_)
  match ax with
  | ⟨0, _⟩ => show win0_9.index t (0 : Fin 2) * 64 + 1 * a.val = a.val; omega
  | ⟨1, _⟩ => show win0_9.index t (1 : Fin 2) * 64 + 1 * b.val = b.val; omega

theorem bias10_block (c : Dev nD) (t : Fin cfg0.N) : vec2Of (iblk0 (F := Ideal) V c 10 t) = vec2Of (V c main_v17) := by
  obtain ⟨-, -, -, -, -, -, -, ⟨e, e'⟩, -⟩ := whole_facts t
  funext b
  show V c main_v17 (((cfg0.win 10).blk t).view.emb (ix2 (0 : Fin 1) b)) = V c main_v17 (ix2 (0 : Fin 1) b)
  refine congrArg _ (funext fun ax => Fin.ext ?_)
  match ax with
  | ⟨0, _⟩ => show win0_10.index t (0 : Fin 2) * 1 + 1 * 0 = 0; omega
  | ⟨1, _⟩ => show win0_10.index t (1 : Fin 2) * 64 + 1 * b.val = b.val; omega

/-- The concatenated output as a function of the entry arrays: in row `i 0`, the message row in columns 0 … 63 and the
    gate row in columns 64 … 127. -/
def catArr (c : Dev nD) : S1000000x128.Idx → EReal := fun i =>
  if h : (i 1).val < 64 then
    sigmaH (matOf (V c main_arg12)) (vec2Of (V c main_v17)) (gateV V c ⟨(i 0).val, idx2_lt0 i⟩)
      (rowE (V c main_v6) ⟨(i 0).val, idx2_lt0 i⟩) ⟨(i 1).val, h⟩
  else gateV V c ⟨(i 0).val, idx2_lt0 i⟩ ⟨(i 1).val - 64, by have := idx2_lt1 i; omega⟩

theorem catArr_apply_lo (c : Dev nD) (i : S1000000x128.Idx) (r : Fin 1000000) (k : Fin 64) (h0 : (i 0).val = r.val) (h1 : (i 1).val = k.val) :
    catArr V c i = sigmaH (matOf (V c main_arg12)) (vec2Of (V c main_v17)) (gateV V c r) (rowE (V c main_v6) r) k := by
  have e0 : (⟨(i 0).val, idx2_lt0 i⟩ : Fin 1000000) = r := Fin.ext h0
  have hlt : (i 1).val < 64 := by have := k.isLt; omega
  have e1 : (⟨(i 1).val, hlt⟩ : Fin 64) = k := Fin.ext h1
  unfold catArr
  rw [dif_pos hlt, e0, e1]

theorem catArr_apply_hi (c : Dev nD) (i : S1000000x128.Idx) (r : Fin 1000000) (k : Fin 64) (h0 : (i 0).val = r.val) (h1 : (i 1).val = 64 + k.val) :
    catArr V c i = gateV V c r k := by
  have e0 : (⟨(i 0).val, idx2_lt0 i⟩ : Fin 1000000) = r := Fin.ext h0
  have hge : ¬(i 1).val < 64 := by omega
  have e1 : (⟨(i 1).val - 64, by have := idx2_lt1 i; omega⟩ : Fin 64) = k := Fin.ext (by show (i 1).val - 64 = k.val; omega)
  unfold catArr
  rw [dif_neg hge, e0, e1]

/-- What point `t` writes back to the concatenated output is block `t` of that array. -/
theorem cat_flushed (c : Dev nD) (t : Fin cfg0.N) :
    (dat0 (F := Ideal) V c).flushed 14 t = ((cfg0.win 14).blk t).view.read (Elt Ideal) (catArr V c) := by
  show (cfg0.win 14).cut (grid0.coords t) ((dat0 (F := Ideal) V c).after 14 t) = _
  rw [after0_14]
  unfold out0_14
  rw [View.canon_unit_zero zero_offsets]
  simp only [View.ld_unit_zero (S := S5000x64) zero_offsets, View.ld_unit_zero (S := S64x64) zero_offsets,
    View.ld_unit_zero (S := S1x64) zero_offsets]
  funext j
  obtain ⟨p, k', rfl⟩ : ∃ (p : Fin 5000) (k' : Fin 128), j = ix2 p k' := ⟨j 0, j 1, eq_ix2 j⟩
  obtain ⟨-, -, -, -, -, -, hlt, -, h140, h141⟩ := index_facts t
  have hr : win0_13.index t (0 : Fin 2) * 5000 + p.val < 1000000 := by have := p.isLt; omega
  by_cases hk : k'.val < 64
  · refine (catPayload_lo_at (iblk0 (F := Ideal) V c 0 t) (iblk0 (F := Ideal) V c 1 t) (iblk0 (F := Ideal) V c 2 t)
      (iblk0 (F := Ideal) V c 3 t) (iblk0 (F := Ideal) V c 4 t) (iblk0 (F := Ideal) V c 5 t) (iblk0 (F := Ideal) V c 6 t)
      (iblk0 (F := Ideal) V c 7 t) (iblk0 (F := Ideal) V c 8 t) (iblk0 (F := Ideal) V c 9 t) (iblk0 (F := Ideal) V c 10 t)
      p ⟨k'.val, hk⟩ k' rfl).trans ?_
    rw [srcRow_block V c t p ⟨_, hr⟩ rfl, dstRow_block V c t p ⟨_, hr⟩ rfl, featRow_block V c t p ⟨_, hr⟩ rfl,
      weight3_block, weight5_block, weight7_block, bias4_block, bias6_block, bias8_block, weight9_block, bias10_block]
    refine (catArr_apply_lo V c _ ⟨_, hr⟩ ⟨k'.val, hk⟩ ?_ ?_).symm
    · show win0_14.index t (0 : Fin 2) * 5000 + 1 * p.val = win0_13.index t (0 : Fin 2) * 5000 + p.val; omega
    · show win0_14.index t (1 : Fin 2) * 128 + 1 * k'.val = k'.val; omega
  · have hk' : k'.val - 64 < 64 := by have := k'.isLt; omega
    refine (catPayload_hi_at (iblk0 (F := Ideal) V c 0 t) (iblk0 (F := Ideal) V c 1 t) (iblk0 (F := Ideal) V c 2 t)
      (iblk0 (F := Ideal) V c 3 t) (iblk0 (F := Ideal) V c 4 t) (iblk0 (F := Ideal) V c 5 t) (iblk0 (F := Ideal) V c 6 t)
      (iblk0 (F := Ideal) V c 7 t) (iblk0 (F := Ideal) V c 8 t) (iblk0 (F := Ideal) V c 9 t) (iblk0 (F := Ideal) V c 10 t)
      p ⟨k'.val - 64, hk'⟩ k' (by show k'.val = 64 + (k'.val - 64); omega)).trans ?_
    rw [srcRow_block V c t p ⟨_, hr⟩ rfl, dstRow_block V c t p ⟨_, hr⟩ rfl, featRow_block V c t p ⟨_, hr⟩ rfl,
      weight3_block, weight5_block, weight7_block, bias4_block, bias6_block, bias8_block]
    refine (catArr_apply_hi V c _ ⟨_, hr⟩ ⟨k'.val - 64, hk'⟩ ?_ ?_).symm
    · show win0_14.index t (0 : Fin 2) * 5000 + 1 * p.val = win0_13.index t (0 : Fin 2) * 5000 + p.val; omega
    · show win0_14.index t (1 : Fin 2) * 128 + 1 * k'.val = 64 + (k'.val - 64); omega

/-- An index of the concatenated output is in point `t`'s block iff each coordinate is in the block's range on its axis. -/
theorem mem_cat_block (t : Fin cfg0.N) (i : S1000000x128.Idx) :
    i ∈ ((cfg0.win 14).blk t).view.set ↔ ∀ a : Fin 2, win0_14.index t a * S5000x128.size a ≤ (i a).val
      ∧ (i a).val < win0_14.index t a * S5000x128.size a + S5000x128.size a := by
  show i ∈ ((View.whole main_v20_1).slice (win0_14.rect t)).set ↔ _
  rw [View.set_slice_whole, Rect.mem_set_unit]
  exact Iff.rfl

/-- The blocks of 5000 rows cover the concatenated output. -/
theorem cat_cover (i : S1000000x128.Idx) :
    ∃ t : Fin cfg0.N, (cfg0.win 14).flush t = true ∧ i ∈ ((cfg0.win 14).blk t).view.set := by
  have hi0 : (i 0).val < 1000000 := (i 0).isLt
  have hi1 : (i 1).val < 128 := (i 1).isLt
  obtain ⟨t, ht⟩ := index_onto ⟨(i 0).val / 5000, by omega⟩
  have q0 : win0_13.index t (0 : Fin 2) = (i 0).val / 5000 := congrFun ht 0
  obtain ⟨-, -, -, -, -, -, -, -, h140, h141⟩ := index_facts t
  refine ⟨t, flush0_14 t, ?_⟩
  rw [mem_cat_block]
  intro a
  match a with
  | ⟨0, _⟩ => show win0_14.index t (0 : Fin 2) * 5000 ≤ (i 0).val ∧ (i 0).val < win0_14.index t (0 : Fin 2) * 5000 + 5000; omega
  | ⟨1, _⟩ => show win0_14.index t (1 : Fin 2) * 128 ≤ (i 1).val ∧ (i 1).val < win0_14.index t (1 : Fin 2) * 128 + 128; omega

/-- The concatenated output after the region is that array. -/
theorem cat_array (c : Dev nD) : (dat0 (F := Ideal) V c).arrAt 14 cfg0.N = catArr V c :=
  (dat0 (F := Ideal) V c).arrAt_eq_of_cover 14 (catArr V c) (fun t _ => cat_flushed V c t) cat_cover

/-- Output window 13 (the edge output) after the region, at `(e, k)`. -/
theorem edge_out_at (c : Dev nD) (e : Fin 1000000) (k : Fin 64) :
    ((dat0 (F := Ideal) V c).arrAt 13 cfg0.N : S1000000x64.Idx → EReal) (ix2 e k)
      = edgeRow (matOf (V c main_arg4)) (vec2Of (V c main_v14)) (matOf (V c main_arg6)) (vec2Of (V c main_v15))
          (matOf (V c main_arg8)) (vec2Of (V c main_v16)) (vec2Of (V c main_v18)) (vec2Of (V c main_v19))
          (rowE (V c main_v6) e) (rowE (V c main_v13) e) (rowE (V c main_arg1) e) k :=
  (congrFun (edge_array V c) (ix2 e k)).trans (edgeArr_apply V c (ix2 e k) e k rfl rfl)

/-- Output window 14 (messages beside gates) after the region: columns 0 … 63 hold the message row. -/
theorem sigma_cat_lo_at (c : Dev nD) (e : Fin 1000000) (k : Fin 64) :
    ((dat0 (F := Ideal) V c).arrAt 14 cfg0.N : S1000000x128.Idx → EReal) (ix2 e (⟨k.val, by have := k.isLt; omega⟩ : Fin 128))
      = sigmaH (matOf (V c main_arg12)) (vec2Of (V c main_v17)) (gateV V c e) (rowE (V c main_v6) e) k :=
  (congrFun (cat_array V c) (ix2 e (⟨k.val, by have := k.isLt; omega⟩ : Fin 128))).trans
    (catArr_apply_lo V c (ix2 e (⟨k.val, by have := k.isLt; omega⟩ : Fin 128)) e k rfl rfl)

/-- … and columns 64 … 127 the gate row. -/
theorem sigma_cat_hi_at (c : Dev nD) (e : Fin 1000000) (k : Fin 64) :
    ((dat0 (F := Ideal) V c).arrAt 14 cfg0.N : S1000000x128.Idx → EReal) (ix2 e (⟨64 + k.val, by have := k.isLt; omega⟩ : Fin 128))
      = gateV V c e k :=
  (congrFun (cat_array V c) (ix2 e (⟨64 + k.val, by have := k.isLt; omega⟩ : Fin 128))).trans
    (catArr_apply_hi V c (ix2 e (⟨64 + k.val, by have := k.isLt; omega⟩ : Fin 128)) e k rfl rfl)

end Cert.KernelIdeal.EdgeRegion

end
-- ==== Proof.NodeRegion.lean ====
/-
  The node region's output array, read at an index, as a row function of the arrays the region is entered with.

  The region runs over 10 blocks of 10000 nodes; block t of the output holds rows 10000·t … 10000·t + 9999, and the body
  computes each row from the same row of its three node-indexed input blocks and from the whole weight and bias blocks.
-/
import proofs.«420971_j2594160247294_3_alg».proof.Proof.Gen.KernelIdeal.Frame
import proofs.«420971_j2594160247294_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeRegion

open Cert.KernelIdeal Cert.KernelIdeal.Gen Idealize.ShloMosaic Idealize.ShloMosaic.TcCoe Idealize.SL.Sem
open Idealize.ShloMosaic.ValueIdx EdgeGatedConv

variable (V : (c : Dev nD) → (b : Ref sig .tc) → Buf (Elt Ideal) ((c : Thread nD τ).loc b))

/-! ## Layout operations of a keep-dimensions row reduction, read at coordinates -/

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product of a block of rows with the weight, at coordinates -/

theorem dot_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dot_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem dot_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem dot_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Rows times the weight, into the zero accumulator: entry `(p, q)` is `Σ_k x[p,k]·W[k,q]`. -/
theorem rowsTimesWeight_at (x : FVec Ideal S10000x64 .f32) (W : FVec Ideal S64x64 .f32) (p : Fin 10000) (q : Fin 64) :
    matmul dot_S10000x64_S64x64_S10000x64_1_0_0_1_n_n none x W (constant (F := Ideal) S10000x64 .f32 0x00000000#32) (ix2 p q)
      = ∑ k : Fin 64, x (ix2 p k) * W (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact dot_lhs_0 _ _
    | ⟨1, _⟩ => exact (dot_lhs_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (dot_rhs_0 _ _).trans hk
    | ⟨1, _⟩ => exact dot_rhs_1 _ _)
  rw [el, er]

/-! ## A row's sum over its 64 lanes -/

/-- The lane sum of a block of rows, at row `p`. -/
theorem laneSum_at (y : FVec Ideal S10000x64 .f32) (p : Fin 10000) :
    multiReduction (F := Ideal) .add [1] S10000 y 0x00000000#32 reduces_S10000x64_S10000 (.inl rfl) rfl (ix1 p)
      = ∑ k : Fin 64, y (ix2 p k) := by
  refine (Ideal.multiReduction_add_single y 0x00000000#32 reduces_S10000x64_S10000 (.inl rfl) rfl (ix1 p)).trans ?_
  refine Finset.sum_congr rfl fun k _ => congrArg y ?_
  funext c
  apply Fin.ext
  match c with
  | ⟨0, _⟩ => rfl
  | ⟨1, _⟩ => rfl

/-! ## The body's value in stages

  The body computes, on a block of 10000 rows: the pre-normalisation rows `y = (x·W + b) + ssh / (ss + 1e-8)`, each row's
  mean as a column, the centred rows, the mean of their squares, and the rows scaled by `rsqrt(σ² + 1e-5)` and by γ; the
  closing statement adds β. -/

/-- The pre-normalisation rows. -/
def preRows (x : FVec Ideal S10000x64 .f32) (W : FVec Ideal S64x64 .f32) (b : FVec Ideal S1x64 .f32)
    (ssh ss : FVec Ideal S10000x64 .f32) : FVec Ideal S10000x64 .f32 :=
  addf (addf (matmul dot_S10000x64_S64x64_S10000x64_1_0_0_1_n_n none x W (constant (F := Ideal) S10000x64 .f32 0x00000000#32))
      (broadcastTo S10000x64 (shapeCast S1x64 b shapeCasts_S1x64_S1x64) broadcasts_S1x64_S10000x64))
    (divf (shapeCast S10000x64 ssh shapeCasts_S10000x64_S10000x64)
      (addf (shapeCast S10000x64 ss shapeCasts_S10000x64_S10000x64) (broadcast S10000x64 (Scalar.ofBits (F := Ideal) .f32 0x322BCC77#32))))

/-- Each row's lane sum divided by 64, as a column. -/
def meanCol (y : FVec Ideal S10000x64 .f32) : FVec Ideal S10000x1 .f32 :=
  divf (shapeCast S10000x1 (multiReduction .add [1] S10000 y 0x00000000#32 reduces_S10000x64_S10000 (.inl rfl) rfl) shapeCasts_S10000_S10000x1)
    (broadcast S10000x1 (Scalar.ofBits (F := Ideal) .f32 0x42800000#32))

/-- The rows less their means. -/
def centred (y : FVec Ideal S10000x64 .f32) : FVec Ideal S10000x64 .f32 :=
  subf y (broadcastTo S10000x64 (meanCol y) broadcasts_S10000x1_S10000x64)

/-- The centred rows times `rsqrt(σ² + 1e-5)`, times the scale row. -/
def scaledRows (y : FVec Ideal S10000x64 .f32) (g : FVec Ideal S1x64 .f32) : FVec Ideal S10000x64 .f32 :=
  mulf (mulf (centred y)
      (broadcastTo S10000x64 (rsqrt (addf (meanCol (mulf (centred y) (centred y))) (broadcast S10000x1 (Scalar.ofBits (F := Ideal) .f32 0x3727C5AC#32))))
        broadcasts_S10000x1_S10000x64))
    (broadcastTo S10000x64 (shapeCast S1x64 g shapeCasts_S1x64_S1x64) broadcasts_S1x64_S10000x64)

/-- The printed value of the scaled rows is these stages composed. -/
theorem scaledRows_eq (x : FVec Ideal S10000x64 .f32) (W : FVec Ideal S64x64 .f32) (b : FVec Ideal S1x64 .f32)
    (ssh ss : FVec Ideal S10000x64 .f32) (g : FVec Ideal S1x64 .f32) :
    k1_pay2 (F := Ideal) x W b ssh ss g = scaledRows (preRows x W b ssh ss) g := rfl

/-- The stored value adds the shift row. -/
theorem stored_eq (z : FVec Ideal S10000x64 .f32) (s : FVec Ideal S1x64 .f32) :
    k1_pay1 (F := Ideal) z s = addf z (broadcastTo S10000x64 (shapeCast S1x64 s shapeCasts_S1x64_S1x64) broadcasts_S1x64_S10000x64) := rfl

/-- A `[1, 64]` row broadcast over the block, at `(p, q)`. -/
theorem rowOver_at (r : FVec Ideal S1x64 .f32) (p : Fin 10000) (q : Fin 64) :
    broadcastTo S10000x64 (shapeCast S1x64 r shapeCasts_S1x64_S1x64) broadcasts_S1x64_S10000x64 (ix2 p q) = r (ix2 (0 : Fin 1) q) := by
  rw [shapeCast_self]
  exact broadcastTo_1b_ab_apply r broadcasts_S1x64_S10000x64 p q

/-- The pre-normalisation rows at `(p, j)`: the linear map of row `p` plus the quotient of the two aggregated rows. -/
theorem preRows_at (x : FVec Ideal S10000x64 .f32) (W : FVec Ideal S64x64 .f32) (b : FVec Ideal S1x64 .f32)
    (ssh ss : FVec Ideal S10000x64 .f32) (p : Fin 10000) (j : Fin 64) :
    preRows x W b ssh ss (ix2 p j)
      = lin (fun a c => W (ix2 a c)) (fun k => b (ix2 (0 : Fin 1) k)) (fun a => x (ix2 p a)) j
        + Ideal.div (ssh (ix2 p j)) (ss (ix2 p j) + cTiny) := by
  unfold preRows
  rw [addf_apply, addf_apply, divf_apply, addf_apply, broadcast_apply, rowsTimesWeight_at, rowOver_at]
  simp only [shapeCast_self]
  rfl

/-- A row's mean, read off the column at `(p, u)`. -/
theorem meanCol_at (y : FVec Ideal S10000x64 .f32) (p : Fin 10000) (u : Fin 1) :
    meanCol y (ix2 p u) = mean (fun k => y (ix2 p k)) := by
  unfold meanCol
  rw [divf_apply, broadcast_apply, shapeCast_a_a1_apply, laneSum_at]
  rfl

/-- The centred rows at `(p, q)`. -/
theorem centred_at (y : FVec Ideal S10000x64 .f32) (p : Fin 10000) (q : Fin 64) :
    centred y (ix2 p q) = y (ix2 p q) - mean (fun k => y (ix2 p k)) := by
  unfold centred
  rw [subf_apply, broadcastTo_a1_ab_apply, meanCol_at]

/-- The scaled rows plus the shift row, at `(p, q)`: LayerNorm of row `p`. -/
theorem normed_at (y : FVec Ideal S10000x64 .f32) (g s : FVec Ideal S1x64 .f32) (p : Fin 10000) (q : Fin 64) :
    k1_pay1 (F := Ideal) (scaledRows y g) s (ix2 p q)
      = lnorm (fun k => g (ix2 (0 : Fin 1) k)) (fun k => s (ix2 (0 : Fin 1) k)) (fun k => y (ix2 p k)) q := by
  rw [stored_eq]
  unfold scaledRows
  rw [addf_apply, mulf_apply, mulf_apply, rowOver_at, rowOver_at, broadcastTo_a1_ab_apply, centred_at]
  show (_ * Ideal.rsqrt (meanCol (mulf (centred y) (centred y)) (ix2 p (0 : Fin 1)) + Ideal.ofBits .f32 0x3727C5AC#32)) * _ + _ = _
  rw [meanCol_at]
  simp only [mulf_apply, centred_at]
  rfl

/-- What the body stores, at `(p, q)`: the node row function of row `p` of the three node blocks and of the weight,
    bias, scale and shift blocks. -/
theorem stored_at (x0 x1 x2 : FVec Ideal S10000x64 .f32) (x3 : FVec Ideal S64x64 .f32) (x4 x5 x6 : FVec Ideal S1x64 .f32)
    (p : Fin 10000) (q : Fin 64) :
    k1_pay1 (F := Ideal) (k1_pay2 (F := Ideal) x0 x3 x4 x1 x2 x5) x6 (ix2 p q)
      = nodeRow (fun a c => x3 (ix2 a c)) (fun k => x4 (ix2 (0 : Fin 1) k)) (fun k => x5 (ix2 (0 : Fin 1) k))
          (fun k => x6 (ix2 (0 : Fin 1) k)) (fun a => x0 (ix2 p a)) (fun a => x1 (ix2 p a)) (fun a => x2 (ix2 p a)) q := by
  rw [scaledRows_eq, normed_at]
  unfold nodeRow
  simp only [preRows_at]

/-! ## From the blocks to the array -/

theorem zeroOffsets : (![0, 0] : Fin 2 → Nat) = fun _ => 0 := funext fun a => by fin_cases a <;> rfl

/-- The whole node output: entry `(n, k)` is the node row function of row `n` of the three node arrays. -/
def nodeArr (c : Dev nD) : S100000x64.Idx → EReal := fun i =>
  nodeRow (matOf (V c main_arg10)) (vec2Of (V c main_v26)) (vec2Of (V c main_v27)) (vec2Of (V c main_v28))
    (rowN (V c main_arg0) ⟨(i 0).val, idx2_lt0 i⟩) (rowN (V c main_v24) ⟨(i 0).val, idx2_lt0 i⟩)
    (rowN (V c main_v25) ⟨(i 0).val, idx2_lt0 i⟩) ⟨(i 1).val, idx2_lt1 i⟩

/-- The printed index maps over the ten grid points: the node windows and the output move to block `t`; the weight and
    the three rows stay at block zero. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of block `t` of the node features is row `10000·t + p` of the array. -/
theorem featBlock_at (c : Dev nD) (t : Fin cfg1.N) (p : Fin 10000) (a : Fin 64) (r : Fin 100000)
    (hr : r.val = t.val * 10000 + p.val) :
    (iblk1 V c 0 t : Vec Ideal S10000x64 .f32) (ix2 p a) = (V c main_arg0 : S100000x64.Idx → EReal) (ix2 r a) := by
  obtain ⟨e0, e1, -⟩ := blockIndex t
  show V c main_arg0 (((cfg1.win 0).blk t).view.emb (ix2 p a)) = V c main_arg0 (ix2 r a)
  refine congrArg (V c main_arg0) (funext fun ax => Fin.ext ?_)
  match ax with
  | ⟨0, _⟩ => show win1_0.index t (0 : Fin 2) * 10000 + 1 * p.val = r.val; rw [e0, hr]; omega
  | ⟨1, _⟩ => show win1_0.index t (1 : Fin 2) * 64 + 1 * a.val = a.val; rw [e1]; omega

/-- Row `p` of block `t` of the aggregated messages is row `10000·t + p` of the array. -/
theorem msgBlock_at (c : Dev nD) (t : Fin cfg1.N) (p : Fin 10000) (a : Fin 64) (r : Fin 100000)
    (hr : r.val = t.val * 10000 + p.val) :
    (iblk1 V c 1 t : Vec Ideal S10000x64 .f32) (ix2 p a) = (V c main_v24 : S100000x64.Idx → EReal) (ix2 r a) := by
  obtain ⟨-, -, e0, e1, -⟩ := blockIndex t
  show V c main_v24 (((cfg1.win 1).blk t).view.emb (ix2 p a)) = V c main_v24 (ix2 r a)
  refine congrArg (V c main_v24) (funext fun ax => Fin.ext ?_)
  match ax with
  | ⟨0, _⟩ => show win1_1.index t (0 : Fin 2) * 10000 + 1 * p.val = r.val; rw [e0, hr]; omega
  | ⟨1, _⟩ => show win1_1.index t (1 : Fin 2) * 64 + 1 * a.val = a.val; rw [e1]; omega

/-- Row `p` of block `t` of the aggregated gates is row `10000·t + p` of the array. -/
theorem gateBlock_at (c : Dev nD) (t : Fin cfg1.N) (p : Fin 10000) (a : Fin 64) (r : Fin 100000)
    (hr : r.val = t.val * 10000 + p.val) :
    (iblk1 V c 2 t : Vec Ideal S10000x64 .f32) (ix2 p a) = (V c main_v25 : S100000x64.Idx → EReal) (ix2 r a) := by
  obtain ⟨-, -, -, -, e0, e1, -⟩ := blockIndex t
  show V c main_v25 (((cfg1.win 2).blk t).view.emb (ix2 p a)) = V c main_v25 (ix2 r a)
  refine congrArg (V c main_v25) (funext fun ax => Fin.ext ?_)
  match ax with
  | ⟨0, _⟩ => show win1_2.index t (0 : Fin 2) * 10000 + 1 * p.val = r.val; rw [e0, hr]; omega
  | ⟨1, _⟩ => show win1_2.index t (1 : Fin 2) * 64 + 1 * a.val = a.val; rw [e1]; omega

/-- The weight's one block is the weight. -/
theorem weightBlock_at (c : Dev nD) (t : Fin cfg1.N) (a b : Fin 64) :
    (iblk1 V c 3 t : Vec Ideal S64x64 .f32) (ix2 a b) = (V c main_arg10 : S64x64.Idx → EReal) (ix2 a b) := by
  obtain ⟨-, -, -, -, -, -, e0, e1, -⟩ := blockIndex t
  show V c main_arg10 (((cfg1.win 3).blk t).view.emb (ix2 a b)) = V c main_arg10 (ix2 a b)
  refine congrArg (V c main_arg10) (funext fun ax => Fin.ext ?_)
  match ax with
  | ⟨0, _⟩ => show win1_3.index t (0 : Fin 2) * 64 + 1 * a.val = a.val; rw [e0]; omega
  | ⟨1, _⟩ => show win1_3.index t (1 : Fin 2) * 64 + 1 * b.val = b.val; rw [e1]; omega

/-- The bias row's one block is the bias row. -/
theorem biasBlock_at (c : Dev nD) (t : Fin cfg1.N) (u : Fin 1) (k : Fin 64) :
    (iblk1 V c 4 t : Vec Ideal S1x64 .f32) (ix2 u k) = (V c main_v26 : S1x64.Idx → EReal) (ix2 u k) := by
  obtain ⟨-, -, -, -, -, -, -, -, e0, e1, -⟩ := blockIndex t
  show V c main_v26 (((cfg1.win 4).blk t).view.emb (ix2 u k)) = V c main_v26 (ix2 u k)
  refine congrArg (V c main_v26) (funext fun ax => Fin.ext ?_)
  match ax with
  | ⟨0, _⟩ => show win1_4.index t (0 : Fin 2) * 1 + 1 * u.val = u.val; rw [e0]; omega
  | ⟨1, _⟩ => show win1_4.index t (1 : Fin 2) * 64 + 1 * k.val = k.val; rw [e1]; omega

/-- The scale row's one block is the scale row. -/
theorem scaleBlock_at (c : Dev nD) (t : Fin cfg1.N) (u : Fin 1) (k : Fin 64) :
    (iblk1 V c 5 t : Vec Ideal S1x64 .f32) (ix2 u k) = (V c main_v27 : S1x64.Idx → EReal) (ix2 u k) := by
  obtain ⟨-, -, -, -, -, -, -, -, -, -, e0, e1, -⟩ := blockIndex t
  show V c main_v27 (((cfg1.win 5).blk t).view.emb (ix2 u k)) = V c main_v27 (ix2 u k)
  refine congrArg (V c main_v27) (funext fun ax => Fin.ext ?_)
  match ax with
  | ⟨0, _⟩ => show win1_5.index t (0 : Fin 2) * 1 + 1 * u.val = u.val; rw [e0]; omega
  | ⟨1, _⟩ => show win1_5.index t (1 : Fin 2) * 64 + 1 * k.val = k.val; rw [e1]; omega

/-- The shift row's one block is the shift row. -/
theorem shiftBlock_at (c : Dev nD) (t : Fin cfg1.N) (u : Fin 1) (k : Fin 64) :
    (iblk1 V c 6 t : Vec Ideal S1x64 .f32) (ix2 u k) = (V c main_v28 : S1x64.Idx → EReal) (ix2 u k) := by
  obtain ⟨-, -, -, -, -, -, -, -, -, -, -, -, e0, e1, -⟩ := blockIndex t
  show V c main_v28 (((cfg1.win 6).blk t).view.emb (ix2 u k)) = V c main_v28 (ix2 u k)
  refine congrArg (V c main_v28) (funext fun ax => Fin.ext ?_)
  match ax with
  | ⟨0, _⟩ => show win1_6.index t (0 : Fin 2) * 1 + 1 * u.val = u.val; rw [e0]; omega
  | ⟨1, _⟩ => show win1_6.index t (1 : Fin 2) * 64 + 1 * k.val = k.val; rw [e1]; omega

/-- Entry `(p, q)` of the output's block `t` sits at `(10000·t + p, q)` of the array. -/
theorem outBlock_emb (t : Fin cfg1.N) (p : Fin 10000) (q : Fin 64) (r : Fin 100000) (hr : r.val = t.val * 10000 + p.val) :
    (((cfg1.win 7).blk t).view.emb (ix2 p q) : S100000x64.Idx) = ix2 r q := by
  obtain ⟨-, -, -, -, -, -, -, -, -, -, -, -, -, -, e0, e1⟩ := blockIndex t
  refine funext fun ax => Fin.ext ?_
  match ax with
  | ⟨0, _⟩ => show win1_7.index t (0 : Fin 2) * 10000 + 1 * p.val = r.val; rw [e0, hr]; omega
  | ⟨1, _⟩ => show win1_7.index t (1 : Fin 2) * 64 + 1 * q.val = q.val; rw [e1]; omega

/-- The node row function respects equality of each of its arguments. -/
theorem nodeRow_congr {W W' : Mat} {b b' γ γ' β β' x x' ssh ssh' ss ss' : Row} (k : Fin 64)
    (hW : W = W') (hb : b = b') (hγ : γ = γ') (hβ : β = β') (hx : x = x') (hssh : ssh = ssh') (hss : ss = ss') :
    nodeRow W b γ β x ssh ss k = nodeRow W' b' γ' β' x' ssh' ss' k := by
  subst hW hb hγ hβ hx hssh hss; rfl

/-- What grid point `t` writes back is block `t` of the whole node output. -/
theorem nodeFlushed_eq (c : Dev nD) (t : Fin cfg1.N) :
    (dat1 V c).flushed 7 t = ((cfg1.win 7).blk t).view.read (Elt Ideal) (nodeArr V c) := by
  show (cfg1.win 7).cut (grid1.coords t) ((dat1 V c).after 7 t) = _
  rw [after1_7]
  unfold out1_7
  rw [View.canon_unit_zero zeroOffsets]
  simp only [View.ld_unit_zero (S := S10000x64) zeroOffsets, View.ld_unit_zero (S := S64x64) zeroOffsets,
    View.ld_unit_zero (S := S1x64) zeroOffsets]
  funext j
  obtain ⟨p, q, rfl⟩ : ∃ (p : Fin 10000) (q : Fin 64), j = ix2 p q := ⟨j 0, j 1, eq_ix2 j⟩
  have hN : t.val < 10 := (N_1 ▸ t.isLt : t.val < 10)
  have hp : p.val < 10000 := p.isLt
  show k1_pay1 (F := Ideal) (k1_pay2 (F := Ideal) (iblk1 V c 0 t) (iblk1 V c 3 t) (iblk1 V c 4 t) (iblk1 V c 1 t) (iblk1 V c 2 t) (iblk1 V c 5 t)) (iblk1 V c 6 t) (ix2 p q)
    = nodeArr V c (((cfg1.win 7).blk t).view.emb (ix2 p q))
  refine (stored_at (iblk1 V c 0 t) (iblk1 V c 1 t) (iblk1 V c 2 t) (iblk1 V c 3 t) (iblk1 V c 4 t) (iblk1 V c 5 t) (iblk1 V c 6 t) p q).trans ?_
  refine Eq.trans ?_ (congrArg (nodeArr V c) (outBlock_emb t p q ⟨t.val * 10000 + p.val, by omega⟩ rfl)).symm
  show _ = nodeRow (matOf (V c main_arg10)) (vec2Of (V c main_v26)) (vec2Of (V c main_v27)) (vec2Of (V c main_v28))
    (rowN (V c main_arg0) ⟨t.val * 10000 + p.val, by omega⟩) (rowN (V c main_v24) ⟨t.val * 10000 + p.val, by omega⟩)
    (rowN (V c main_v25) ⟨t.val * 10000 + p.val, by omega⟩) q
  exact nodeRow_congr q
    (funext fun a => funext fun b => weightBlock_at V c t a b)
    (funext fun k => biasBlock_at V c t 0 k)
    (funext fun k => scaleBlock_at V c t 0 k)
    (funext fun k => shiftBlock_at V c t 0 k)
    (funext fun a => featBlock_at V c t p a _ rfl)
    (funext fun a => msgBlock_at V c t p a _ rfl)
    (funext fun a => gateBlock_at V c t p a _ rfl)

/-- An index of the array is in point `t`'s block iff each coordinate is in the block's range on its axis. -/
theorem mem_nodeBlock (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v29).slice (win1_7.rect t)).set ↔ _
  rw [View.set_slice_whole, Rect.mem_set_unit]
  exact Iff.rfl

/-- Every index of the array is in some point's block: row `r` is in block `r / 10000`. -/
theorem nodeCovered (i : S100000x64.Idx) :
    ∃ t : Fin cfg1.N, (cfg1.win 7).flush t = true ∧ i ∈ ((cfg1.win 7).blk t).view.set := by
  have hi0 : (i 0).val < 100000 := idx2_lt0 i
  have hi1 : (i 1).val < 64 := idx2_lt1 i
  obtain ⟨t, ht⟩ : ∃ t : Fin cfg1.N, t.val = (i 0).val / 10000 :=
    ⟨⟨(i 0).val / 10000, by rw [show cfg1.N = 10 from N_1]; omega⟩, rfl⟩
  obtain ⟨-, -, -, -, -, -, -, -, -, -, -, -, -, -, e0, e1⟩ := blockIndex t
  refine ⟨t, flush1_7 t, ?_⟩
  rw [mem_nodeBlock]
  intro a
  match a with
  | ⟨0, _⟩ =>
    show win1_7.index t (0 : Fin 2) * 10000 ≤ (i 0).val ∧ (i 0).val < win1_7.index t (0 : Fin 2) * 10000 + 10000
    rw [e0, ht]; omega
  | ⟨1, _⟩ =>
    show win1_7.index t (1 : Fin 2) * 64 ≤ (i 1).val ∧ (i 1).val < win1_7.index t (1 : Fin 2) * 64 + 64
    rw [e1]; omega

/-- After the region the output array is the whole node output. -/
theorem nodeFinal (c : Dev nD) : ((dat1 (F := Ideal) V c).arrAt 7 cfg1.N : S100000x64.Idx → EReal) = nodeArr V c :=
  (dat1 V c).arrAt_eq_of_cover 7 (nodeArr V c) (fun t _ => nodeFlushed_eq V c t) nodeCovered

/-- Output window 7 (the node output) after the region, at `(n, k)`. -/
theorem node_out_at (c : Dev nD) (n : Fin 100000) (k : Fin 64) :
    ((dat1 (F := Ideal) V c).arrAt 7 cfg1.N : S100000x64.Idx → EReal) (ix2 n k)
      = nodeRow (matOf (V c main_arg10)) (vec2Of (V c main_v26)) (vec2Of (V c main_v27)) (vec2Of (V c main_v28))
          (rowN (V c main_arg0) n) (rowN (V c main_v24) n) (rowN (V c main_v25) n) k :=
  congrFun (nodeFinal V c) (ix2 n k)

end Cert.KernelIdeal.NodeRegion

end
-- ==== Proof.LibGatherRows.lean ====
/-
  `stablehlo.gather` of ROWS of a rank-2 operand, read at an index.

  What `x[idx]` of an array `x : [N, C]` at an integer vector `idx : [E]` lowers to: a gather with offset_dims `[1]`,
  collapsed_slice_dims `[0]`, start_index_map `[0]`, index_vector_dim 1 and slice_sizes `[1, C]` over the indices as
  `[E, 1]`. Result element `(e, k)` is `x` at row "the start index `idx[e, 0]` read as a signed integer and clamped into
  `[0, N − 1]`", column `k`: the row depends on the index word alone, the column passes through.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- Those dimension numbers for an operand `[N, C]`, start indices `[E, 1]` and result `[E, C]`; their conditions `wf`
    are decided on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER READ AT `(e, k)`: the operand at the row the start index `idx[e, 0]` names (signed, clamped into
    `[0, N − 1]`), column `k`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowsDims N E C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    -- axis 0 is collapsed and mapped: no batching coordinate, no offset coordinate, the clamped start alone
    show (rowsDims N E C wf).start (ix2 e k) idx 0 + (rowsDims N E C wf).batchCoord (ix2 e k) 0
        + (rowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e k) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: it is not mapped (start 0), not batching, and its offset coordinate is the column
    show (rowsDims N E C wf).start (ix2 e k) idx 1 + (rowsDims N E C wf).batchCoord (ix2 e k) 1
        + (rowsDims N E C wf).offCoord (ix2 e k) 1 = _
    rw [GatherDims.batchCoord_eq_zero _ _ _ List.not_mem_nil]
    unfold GatherDims.start
    rw [dif_neg (show (1 : Fin 2) ∉ (rowsDims N E C wf).startIndexMap from
      fun h => absurd (show (1 : Nat) = 0 from congrArg Fin.val (List.mem_singleton.mp h)) (by decide))]
    simp only [Nat.add_zero, Nat.zero_add]
    rfl

end Idealize.ShloMosaic.GatherRows

end
-- ==== Proof.LibScatterRows.lean ====
/-
  The host's accumulating float scatter of ROWS into a rank-2 operand, read at an index, at the exact-real reading.

  What `x.at[idx].add(upd)` (and a segment sum) of `x : [N, C]`, `idx : [E]`, `upd : [E, C]` lowers to: a scatter with
  update_window_dims `[1]`, inserted_window_dims `[0]`, scatter_dims_to_operand_dims `[0]` and index_vector_dim 1 over
  the indices as `[E, 1]`, its body an addition. At the exact-real reading element `(n, k)` of the result is the operand's
  element plus the sum of `upd[e, k]` over the rows `e` whose index word, read as a signed integer, is `n` (an index
  outside `[0, N)` lands nowhere): the column passes through, so the scatter separates per column.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- Those dimension numbers for an operand `[N, C]`, scatter indices `[E, 1]` and updates `[E, C]`; their conditions
    `wf` are decided on a program's literal shapes. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 (the mapped axis) the window starts at the row's index word, read signed: the index word of update
    `(e, c)` sits at `(e, 0)` of the scatter indices. -/
private theorem start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsDims N E C wf).start (ix2 e c) idx 0 = (idx (ix2 e (0 : Fin 1))).toInt := by
  unfold ScatterDims.start
  rw [dif_pos (show (0 : Fin 2) ∈ (rowsDims N E C wf).scatterDimsToOperandDims from List.mem_singleton.mpr rfl)]
  have hsi : (rowsDims N E C wf).siIdx (ix2 e c) ⟨List.idxOf (0 : Fin 2) (rowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Operand axis 1 is not mapped: its window starts at `0`. -/
private theorem start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowsDims N E C wf).start (ix2 e c) idx 1 = 0 := by
  unfold ScatterDims.start
  rw [dif_neg (show (1 : Fin 2) ∉ (rowsDims N E C wf).scatterDimsToOperandDims from
    fun h => absurd (show (1 : Nat) = 0 from congrArg Fin.val (List.mem_singleton.mp h)) (by decide))]

/-- Operand axis 0 is an inserted window axis: its window coordinate is `0`. -/
private theorem window_zero {N E C : Nat}
    (wf : ScatterDims.WF ⟨2, ![N, C]⟩ ⟨2, ![E, 1]⟩ ⟨2, ![E, C]⟩ [1] [0] [0] 1) (e : Fin E) (c : Fin C) :
    (rowsDims N E C wf).window (ix2 e c) 0 = 0 := by
  unfold ScatterDims.window
  rw [dif_neg (show (0 : Fin 2) ∉ (rowsDims N E C wf).sKept from by
    simp [ScatterDims.sKept, Shape.kept])]

/-- Operand axis 1 is the one kept axis: its window coordinate is the update's column. -/
private theorem window_one {N E C : Nat}
    (wf : ScatterDims.WF ⟨2, ![N, C]⟩ ⟨2, ![E, 1]⟩ ⟨2, ![E, C]⟩ [1] [0] [0] 1) (e : Fin E) (c : Fin C) :
    (rowsDims N E C wf).window (ix2 e c) 1 = c.val := by
  unfold ScatterDims.window
  rw [dif_pos (show (1 : Fin 2) ∈ (rowsDims N E C wf).sKept from by
    simp [ScatterDims.sKept, Shape.kept])]
  rfl

/-- WHERE AN UPDATE LANDS: update `(e, c)` lands on element `(n, k)` exactly when its column is `k` and its row's index
    word, read signed, is `n`. -/
theorem resultIdx_rows_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (k : Fin C) :
    (rowsDims N E C wf).resultIdx? (ix2 e c) idx = some (ix2 n k)
      ↔ c = k ∧ (idx (ix2 e (0 : Fin 1))).toInt = (n.val : Int) := by
  have hs0 := start_zero wf idx e c
  have hs1 := start_one wf idx e c
  have hw0 := window_zero wf e c
  have hw1 := window_one wf e c
  have hn := n.isLt
  have hk := k.isLt
  have hc := c.isLt
  unfold ScatterDims.resultIdx?
  constructor
  · intro h
    split at h
    · rename_i hr
      have h' := Option.some.inj h
      -- the two coordinates of the landing index, as numbers
      have h0 : ((rowsDims N E C wf).start (ix2 e c) idx 0 + ((rowsDims N E C wf).window (ix2 e c) 0 : Int)).toNat = n.val :=
        congrArg Fin.val (congrFun h' 0)
      have h1 : ((rowsDims N E C wf).start (ix2 e c) idx 1 + ((rowsDims N E C wf).window (ix2 e c) 1 : Int)).toNat = k.val :=
        congrArg Fin.val (congrFun h' 1)
      have hr0 := (hr 0).1
      rw [hs0, hw0] at h0 hr0
      rw [hs1, hw1] at h1
      exact ⟨Fin.ext (by omega), by omega⟩
    · exact absurd h (by simp)
  · rintro ⟨rfl, ht⟩
    have hr : ∀ a : Fin 2, 0 ≤ (rowsDims N E C wf).start (ix2 e c) idx a + ((rowsDims N E C wf).window (ix2 e c) a : Int)
        ∧ (rowsDims N E C wf).start (ix2 e c) idx a + ((rowsDims N E C wf).window (ix2 e c) a : Int)
            < (((⟨2, ![N, C]⟩ : Shape).size a : Nat) : Int) := by
      intro a
      match a with
      | ⟨0, _⟩ =>
        show 0 ≤ (rowsDims N E C wf).start (ix2 e c) idx 0 + ((rowsDims N E C wf).window (ix2 e c) 0 : Int)
          ∧ (rowsDims N E C wf).start (ix2 e c) idx 0 + ((rowsDims N E C wf).window (ix2 e c) 0 : Int) < ((N : Nat) : Int)
        rw [hs0, hw0]; omega
      | ⟨1, _⟩ =>
        show 0 ≤ (rowsDims N E C wf).start (ix2 e c) idx 1 + ((rowsDims N E C wf).window (ix2 e c) 1 : Int)
          ∧ (rowsDims N E C wf).start (ix2 e c) idx 1 + ((rowsDims N E C wf).window (ix2 e c) 1 : Int) < ((C : Nat) : Int)
        rw [hs1, hw1]; omega
    rw [dif_pos hr]
    congr 1
    funext a
    refine Fin.ext ?_
    match a with
    | ⟨0, _⟩ =>
      show ((rowsDims N E C wf).start (ix2 e c) idx 0 + ((rowsDims N E C wf).window (ix2 e c) 0 : Int)).toNat = n.val
      rw [hs0, hw0]; omega
    | ⟨1, _⟩ =>
      show ((rowsDims N E C wf).start (ix2 e c) idx 1 + ((rowsDims N E C wf).window (ix2 e c) 1 : Int)).toNat = c.val
      rw [hs1, hw1]; omega

/-- THE SCATTER-ADD READ AT `(n, k)`: the operand's element plus the sum, over the rows whose index word is `n`, of the
    update's element in column `k`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowsDims N E C wf) x idx upd (ix2 n k)
      = x (ix2 n k) + ∑ e : Fin E, if (idx (ix2 e (0 : Fin 1))).toInt = (n.val : Int) then upd (ix2 e k) else 0 := by
  unfold Ideal.hostScatterAdd
  congr 1
  rw [Finset.sum_filter, ValueIdx.sum_idx2]
  refine Finset.sum_congr rfl fun e _ => ?_
  simp only [resultIdx_rows_iff]
  -- per row: the sum over the columns keeps the one column `k`
  by_cases hP : (idx (ix2 e (0 : Fin 1))).toInt = (n.val : Int)
  · simp only [hP, and_true, if_true]
    rw [Finset.sum_ite_eq' Finset.univ k (fun c => upd (ix2 e c))]
    simp
  · simp only [hP, and_false, if_false]
    exact Finset.sum_const_zero

end Idealize.ShloMosaic.ScatterRows

end
-- ==== Proof.HostStretch.lean ====
/-
  The arrays each region is entered with, in the specification's words.

  Before the first region the host gathers the node rows each edge's source and destination words name (the words
  wrapped once by the axis length when negative) and reshapes six 64-vectors to one-row matrices; between the regions
  it scatters the first region's messages-beside-gates array by the raw destination words into a zeroed
  [100000, 128] array and slices its two halves, and reshapes three more 64-vectors. Read at an index: a gathered
  row is the node array's row at the word's row; a reshaped vector's one row is the vector; a slice of the scatter at
  (n, k) is the zero word plus the sum, over the edges whose destination word is n, of the scattered array's element in
  the half's column k.
-/
import proofs.«420971_j2594160247294_3_alg».proof.Proof.Gen.KernelIdeal.Frame
import proofs.«420971_j2594160247294_3_alg».proof.Proof.Spec
import proofs.«420971_j2594160247294_3_alg».proof.Proof.LibGatherRows
import proofs.«420971_j2594160247294_3_alg».proof.Proof.LibScatterRows
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.HostStretch

open Cert.KernelIdeal Cert.KernelIdeal.Gen Idealize.ShloMosaic Idealize.ShloMosaic.TcCoe Idealize.SL.Sem
open Idealize.ShloMosaic.StableHlo Idealize.ShloMosaic.ValueIdx EdgeGatedConv

variable (m : (ℓ : Loc nD τ sig) → Buf (Elt Ideal) ℓ) (ρ : Dev nD → PrngReg)

/-! ## The argument arrays at their literal types -/

abbrev aX (c : Dev nD) : S100000x64.Idx → EReal := m ((c : Thread nD τ).loc main_arg0)
abbrev aEF (c : Dev nD) : S1000000x64.Idx → EReal := m ((c : Thread nD τ).loc main_arg1)
abbrev aSrc (c : Dev nD) : S1000000.Idx → BitVec 32 := m ((c : Thread nD τ).loc main_arg2)
abbrev aDst (c : Dev nD) : S1000000.Idx → BitVec 32 := m ((c : Thread nD τ).loc main_arg3)
abbrev aWsg (c : Dev nD) : S64x64.Idx → EReal := m ((c : Thread nD τ).loc main_arg4)
abbrev aBsg (c : Dev nD) : S64.Idx → EReal := m ((c : Thread nD τ).loc main_arg5)
abbrev aWdg (c : Dev nD) : S64x64.Idx → EReal := m ((c : Thread nD τ).loc main_arg6)
abbrev aBdg (c : Dev nD) : S64.Idx → EReal := m ((c : Thread nD τ).loc main_arg7)
abbrev aWeg (c : Dev nD) : S64x64.Idx → EReal := m ((c : Thread nD τ).loc main_arg8)
abbrev aBeg (c : Dev nD) : S64.Idx → EReal := m ((c : Thread nD τ).loc main_arg9)
abbrev aWsu (c : Dev nD) : S64x64.Idx → EReal := m ((c : Thread nD τ).loc main_arg10)
abbrev aBsu (c : Dev nD) : S64.Idx → EReal := m ((c : Thread nD τ).loc main_arg11)
abbrev aWdu (c : Dev nD) : S64x64.Idx → EReal := m ((c : Thread nD τ).loc main_arg12)
abbrev aBdu (c : Dev nD) : S64.Idx → EReal := m ((c : Thread nD τ).loc main_arg13)
abbrev aGe (c : Dev nD) : S64.Idx → EReal := m ((c : Thread nD τ).loc main_arg14)
abbrev aBe (c : Dev nD) : S64.Idx → EReal := m ((c : Thread nD τ).loc main_arg15)
abbrev aGn (c : Dev nD) : S64.Idx → EReal := m ((c : Thread nD τ).loc main_arg16)
abbrev aBn (c : Dev nD) : S64.Idx → EReal := m ((c : Thread nD τ).loc main_arg17)

/-! ## General readings -/

/-- The one row of a 64-vector reshaped to `[1, 64]` is the vector. -/
theorem vec2Of_reshape (b : S64.Idx → EReal) : vec2Of (shapeCast S1x64 b shapeCasts_S64_S1x64) = vecOf b := by
  funext k
  show shapeCast S1x64 b shapeCasts_S64_S1x64 (ix2 (0 : Fin 1) k) = b (ix1 k)
  rw [shapeCast_addUnit_apply]
  exact congrArg b (funext fun a => match a with | ⟨0, _⟩ => rfl)

/-- The word a wrapped index vector, broadcast to a column, holds at edge `e`. -/
theorem wrapped_word (s : S1000000.Idx → BitVec 32) (e : Fin 1000000) :
    broadcastInDim S1000000x1 ![0] bcast_S1000000_S1000000x1_0
        (select (cmpi CmpIPredicate.slt s (broadcastInDim S1000000 ![] bcast_S_S1000000 (constantI S_ 32 0#32)))
          (addi s (broadcastInDim S1000000 ![] bcast_S_S1000000 (constantI S_ 32 100000#32))) s) (ix2 e (0 : Fin 1))
      = wrapWord (s (ix1 e)) := by
  rw [broadcastInDim_apply _ _ _ _ (ix1 e) (fun a => match a with
    | ⟨0, _⟩ => by show (e : Nat) = if (1000000 : Nat) = 1 then 0 else (e : Nat); rw [if_neg (by decide)])]
  rfl

/-- A row of the gather of node rows at a wrapped index column: the node array's row at the word's row. -/
theorem rowE_gather (x : S100000x64.Idx → EReal) (s : S1000000.Idx → BitVec 32) (e : Fin 1000000) :
    rowE (Host.gather gather_S100000x64_S1000000x1_S1000000x64_1_0_n_n_0_1_164 x
      (broadcastInDim S1000000x1 ![0] bcast_S1000000_S1000000x1_0
        (select (cmpi CmpIPredicate.slt s (broadcastInDim S1000000 ![] bcast_S_S1000000 (constantI S_ 32 0#32)))
          (addi s (broadcastInDim S1000000 ![] bcast_S_S1000000 (constantI S_ 32 100000#32))) s))) e
      = rowN x (rowOfWord (wrapWord (s (ix1 e)))) := by
  funext a
  show Host.gather gather_S100000x64_S1000000x1_S1000000x64_1_0_n_n_0_1_164 x _ (ix2 e a) = x (ix2 _ a)
  rw [show gather_S100000x64_S1000000x1_S1000000x64_1_0_n_n_0_1_164
      = GatherRows.rowsDims 100000 1000000 64 (by decide) from rfl,
    GatherRows.gather_rows_apply (by decide)]
  refine congrArg (fun r => x (ix2 r a)) (Fin.ext ?_)
  show min (broadcastInDim S1000000x1 ![0] bcast_S1000000_S1000000x1_0
        (select (cmpi CmpIPredicate.slt s (broadcastInDim S1000000 ![] bcast_S_S1000000 (constantI S_ 32 0#32)))
          (addi s (broadcastInDim S1000000 ![] bcast_S_S1000000 (constantI S_ 32 100000#32))) s) (ix2 e (0 : Fin 1))).toInt.toNat (100000 - 1)
      = min (wrapWord (s (ix1 e))).toInt.toNat 99999
  rw [wrapped_word]

/-! ## The first region's entry arrays -/

theorem entry0_src (c : Dev nD) (e : Fin 1000000) :
    rowE (V1 m ρ c main_v6) e = rowN (aX m c) (rowOfWord (wrapWord (wordOf (aSrc m c) e))) := by
  have h : V1 m ρ c main_v6 = Host.gather gather_S100000x64_S1000000x1_S1000000x64_1_0_n_n_0_1_164 (aX m c)
      (broadcastInDim S1000000x1 ![0] bcast_S1000000_S1000000x1_0
        (select (cmpi CmpIPredicate.slt (aSrc m c) (broadcastInDim S1000000 ![] bcast_S_S1000000 (constantI S_ 32 0#32)))
          (addi (aSrc m c) (broadcastInDim S1000000 ![] bcast_S_S1000000 (constantI S_ 32 100000#32))) (aSrc m c))) := by
    show StableHlo.after hostOps0 (W0 m ρ c) (Proc.devRef .tc main_v6) = _
    after_results
  rw [h, rowE_gather]
  rfl

theorem entry0_dst (c : Dev nD) (e : Fin 1000000) :
    rowE (V1 m ρ c main_v13) e = rowN (aX m c) (rowOfWord (wrapWord (wordOf (aDst m c) e))) := by
  have h : V1 m ρ c main_v13 = Host.gather gather_S100000x64_S1000000x1_S1000000x64_1_0_n_n_0_1_164 (aX m c)
      (broadcastInDim S1000000x1 ![0] bcast_S1000000_S1000000x1_0
        (select (cmpi CmpIPredicate.slt (aDst m c) (broadcastInDim S1000000 ![] bcast_S_S1000000 (constantI S_ 32 0#32)))
          (addi (aDst m c) (broadcastInDim S1000000 ![] bcast_S_S1000000 (constantI S_ 32 100000#32))) (aDst m c))) := by
    show StableHlo.after hostOps0 (W0 m ρ c) (Proc.devRef .tc main_v13) = _
    after_results
  rw [h, rowE_gather]
  rfl

theorem entry0_EF (c : Dev nD) : V1 m ρ c main_arg1 = aEF m c := by
  show StableHlo.after hostOps0 (W0 m ρ c) (Proc.devRef .tc main_arg1) = _
  after_results
theorem entry0_Wsg (c : Dev nD) : V1 m ρ c main_arg4 = aWsg m c := by
  show StableHlo.after hostOps0 (W0 m ρ c) (Proc.devRef .tc main_arg4) = _
  after_results
theorem entry0_Wdg (c : Dev nD) : V1 m ρ c main_arg6 = aWdg m c := by
  show StableHlo.after hostOps0 (W0 m ρ c) (Proc.devRef .tc main_arg6) = _
  after_results
theorem entry0_Weg (c : Dev nD) : V1 m ρ c main_arg8 = aWeg m c := by
  show StableHlo.after hostOps0 (W0 m ρ c) (Proc.devRef .tc main_arg8) = _
  after_results
theorem entry0_Wdu (c : Dev nD) : V1 m ρ c main_arg12 = aWdu m c := by
  show StableHlo.after hostOps0 (W0 m ρ c) (Proc.devRef .tc main_arg12) = _
  after_results

theorem entry0_bsg (c : Dev nD) : vec2Of (V1 m ρ c main_v14) = vecOf (aBsg m c) := by
  have h : V1 m ρ c main_v14 = shapeCast S1x64 (aBsg m c) shapeCasts_S64_S1x64 := by
    show StableHlo.after hostOps0 (W0 m ρ c) (Proc.devRef .tc main_v14) = _
    after_results
    rfl
  rw [h, vec2Of_reshape]
theorem entry0_bdg (c : Dev nD) : vec2Of (V1 m ρ c main_v15) = vecOf (aBdg m c) := by
  have h : V1 m ρ c main_v15 = shapeCast S1x64 (aBdg m c) shapeCasts_S64_S1x64 := by
    show StableHlo.after hostOps0 (W0 m ρ c) (Proc.devRef .tc main_v15) = _
    after_results
    rfl
  rw [h, vec2Of_reshape]
theorem entry0_beg (c : Dev nD) : vec2Of (V1 m ρ c main_v16) = vecOf (aBeg m c) := by
  have h : V1 m ρ c main_v16 = shapeCast S1x64 (aBeg m c) shapeCasts_S64_S1x64 := by
    show StableHlo.after hostOps0 (W0 m ρ c) (Proc.devRef .tc main_v16) = _
    after_results
    rfl
  rw [h, vec2Of_reshape]
theorem entry0_bdu (c : Dev nD) : vec2Of (V1 m ρ c main_v17) = vecOf (aBdu m c) := by
  have h : V1 m ρ c main_v17 = shapeCast S1x64 (aBdu m c) shapeCasts_S64_S1x64 := by
    show StableHlo.after hostOps0 (W0 m ρ c) (Proc.devRef .tc main_v17) = _
    after_results
    rfl
  rw [h, vec2Of_reshape]
theorem entry0_ge (c : Dev nD) : vec2Of (V1 m ρ c main_v18) = vecOf (aGe m c) := by
  have h : V1 m ρ c main_v18 = shapeCast S1x64 (aGe m c) shapeCasts_S64_S1x64 := by
    show StableHlo.after hostOps0 (W0 m ρ c) (Proc.devRef .tc main_v18) = _
    after_results
    rfl
  rw [h, vec2Of_reshape]
theorem entry0_be (c : Dev nD) : vec2Of (V1 m ρ c main_v19) = vecOf (aBe m c) := by
  have h : V1 m ρ c main_v19 = shapeCast S1x64 (aBe m c) shapeCasts_S64_S1x64 := by
    show StableHlo.after hostOps0 (W0 m ρ c) (Proc.devRef .tc main_v19) = _
    after_results
    rfl
  rw [h, vec2Of_reshape]

end Cert.KernelIdeal.HostStretch

end
-- ==== Proof.SecondEntry.lean ====
/-
  The arrays the second region is entered with, in the specification's words.

  Between the regions the host scatters the first region's messages-beside-gates array by the raw destination words into
  a zeroed [100000, 128] array and slices its two halves, and reshapes three more 64-vectors to one-row matrices; the node
  features and the update weight are as launched. A slice of the scatter at (n, k) is the zero word plus the sum, over the
  edges whose destination word is n, of the scattered array's element in the half's column k: a segment sum.
-/
import proofs.«420971_j2594160247294_3_alg».proof.Proof.HostStretch

set_option maxRecDepth 16384

noncomputable section

open scoped BigOperators

namespace Cert.KernelIdeal.HostStretch

open Cert.KernelIdeal Cert.KernelIdeal.Gen Idealize.ShloMosaic Idealize.ShloMosaic.TcCoe Idealize.SL.Sem
open Idealize.ShloMosaic.StableHlo Idealize.ShloMosaic.ValueIdx EdgeGatedConv

/-! ## The scatter's two halves, read at an index, over any destination words and any scattered array -/

/-- The zeroed array holds the zero word everywhere. -/
theorem zeros_at (n : Fin 100000) (j : Fin 128) :
    broadcastInDim S100000x128 ![] bcast_S_S100000x128 (constant (F := Ideal) S_ .f32 0x00000000#32) (ix2 n j) = cZero := rfl

/-- The destination words as a column hold edge `e`'s word at row `e`. -/
theorem dst_word_at (d : S1000000.Idx → BitVec 32) (e : Fin 1000000) :
    broadcastInDim S1000000x1 ![0] bcast_S1000000_S1000000x1_0 d (ix2 e (0 : Fin 1)) = d (ix1 e) :=
  broadcastInDim_apply _ _ _ _ (ix1 e) (fun a => match a with
    | ⟨0, _⟩ => by show (e : Nat) = if (1000000 : Nat) = 1 then 0 else (e : Nat); rw [if_neg (by decide)])

/-- The program's scatter dimension numbers are the row-scatter's. -/
theorem scatterDims_eq : scatter_S100000x128_S1000000x1_S1000000x128_1_0_0_1
    = ScatterRows.rowsDims 100000 1000000 128 Facts₀.scatter_S100000x128_S1000000x1_S1000000x128_1_0_0_1_wf := rfl

/-- The program's accumulating scatter of rows read at `(n, j)`: the operand's element plus the sum of the updates'
    column `j` over the edges whose index word is `n`. -/
theorem scatter_at (z : S100000x128.Idx → EReal) (idx : S1000000x1.Idx → BitVec 32) (upd : S1000000x128.Idx → EReal)
    (n : Fin 100000) (j : Fin 128) :
    Host.scatterAdd (F := Ideal) (φ := .f32) scatter_S100000x128_S1000000x1_S1000000x128_1_0_0_1 z idx upd (ix2 n j)
      = z (ix2 n j) + ∑ e : Fin 1000000, if (idx (ix2 e (0 : Fin 1))).toInt = (n.val : Int) then upd (ix2 e j) else 0 := by
  unfold Host.scatterAdd
  rw [Ideal.hostScatterAdd_def, scatterDims_eq]
  exact ScatterRows.scatterAdd_rows_apply _ z idx upd n j

/-- Into the zeroed array, by the destination words as a column: the segment sum, over the edges whose destination word
    is `n`, of the scattered array's column `j`. -/
theorem scatter_seg (d : S1000000.Idx → BitVec 32) (u : S1000000x128.Idx → EReal) (n : Fin 100000) (j : Fin 128) :
    Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 d) u (ix2 n j)
      = segSum (wordOf d) (fun e => u (ix2 e j)) n := by
  unfold segSum wordOf
  rw [scatter_at, zeros_at]
  refine congrArg (fun s => cZero + s) (Finset.sum_congr rfl fun e _ => ?_)
  rw [dst_word_at]

/-- The low half's slice at `(n, k)` is the sliced array at column `k` … -/
theorem slice_lo_at (y : S100000x128.Idx → EReal) (n : Fin 100000) (k : Fin 64) :
    extractStridedSlice S100000x64 ![0, 0] y slices_S100000x128_S100000x64_0_0 (ix2 n k)
      = y (ix2 n (⟨k.val, by have := k.isLt; omega⟩ : Fin 128)) :=
  extractStridedSlice_apply _ _ _ _ _ (fun a => match a with
    | ⟨0, _⟩ => by show (n : Nat) = 0 + (n : Nat); omega
    | ⟨1, _⟩ => by show (k : Nat) = 0 + (k : Nat); omega)

/-- … and the high half's at column `64 + k`. -/
theorem slice_hi_at (y : S100000x128.Idx → EReal) (n : Fin 100000) (k : Fin 64) :
    extractStridedSlice S100000x64 ![0, 64] y slices_S100000x128_S100000x64_0_64 (ix2 n k)
      = y (ix2 n (⟨64 + k.val, by have := k.isLt; omega⟩ : Fin 128)) :=
  extractStridedSlice_apply _ _ _ _ _ (fun a => match a with
    | ⟨0, _⟩ => by show (n : Nat) = 0 + (n : Nat); omega
    | ⟨1, _⟩ => by show 64 + (k : Nat) = 64 + (k : Nat); rfl)

/-- The low half of the scatter is the segment sum of the scattered array's low columns … -/
theorem seg_lo (d : S1000000.Idx → BitVec 32) (u : S1000000x128.Idx → EReal) (n : Fin 100000) (k : Fin 64) :
    extractStridedSlice S100000x64 ![0, 0]
        (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 d) u) slices_S100000x128_S100000x64_0_0 (ix2 n k)
      = segSum (wordOf d) (fun e => u (ix2 e (⟨k.val, by have := k.isLt; omega⟩ : Fin 128))) n := by
  rw [slice_lo_at]
  exact scatter_seg d u n _

/-- … and the high half the segment sum of its high columns. -/
theorem seg_hi (d : S1000000.Idx → BitVec 32) (u : S1000000x128.Idx → EReal) (n : Fin 100000) (k : Fin 64) :
    extractStridedSlice S100000x64 ![0, 64]
        (Host.scatterAdd (F := Ideal) scatter_S100000x128_S1000000x1_S1000000x128_1_0_0_1 (broadcastInDim S100000x128 ![] bcast_S_S100000x128 (constant (F := Ideal) S_ .f32 0x00000000#32)) (broadcastInDim S1000000x1 ![0] bcast_S1000000_S1000000x1_0 d) u) slices_S100000x128_S100000x64_0_64 (ix2 n k)
      = segSum (wordOf d) (fun e => u (ix2 e (⟨64 + k.val, by have := k.isLt; omega⟩ : Fin 128))) n := by
  rw [slice_hi_at]
  exact scatter_seg d u n _

variable (m : (ℓ : Loc nD τ sig) → Buf (Elt Ideal) ℓ) (ρ : Dev nD → PrngReg)

/-! ## What the first region leaves of the arguments it does not write -/

theorem exit0_X (c : Dev nD) : W2 m ρ c (Proc.devRef .tc main_arg0) = aX m c := by
  rw [W2_of_ne m ρ c main_arg0 (by decide)]
  show StableHlo.after hostOps0 (W0 m ρ c) (Proc.devRef .tc main_arg0) = _
  after_results
theorem exit0_dst (c : Dev nD) : W2 m ρ c (Proc.devRef .tc main_arg3) = aDst m c := by
  rw [W2_of_ne m ρ c main_arg3 (by decide)]
  show StableHlo.after hostOps0 (W0 m ρ c) (Proc.devRef .tc main_arg3) = _
  after_results
theorem exit0_Wsu (c : Dev nD) : W2 m ρ c (Proc.devRef .tc main_arg10) = aWsu m c := by
  rw [W2_of_ne m ρ c main_arg10 (by decide)]
  show StableHlo.after hostOps0 (W0 m ρ c) (Proc.devRef .tc main_arg10) = _
  after_results
theorem exit0_bsu (c : Dev nD) : W2 m ρ c (Proc.devRef .tc main_arg11) = aBsu m c := by
  rw [W2_of_ne m ρ c main_arg11 (by decide)]
  show StableHlo.after hostOps0 (W0 m ρ c) (Proc.devRef .tc main_arg11) = _
  after_results
theorem exit0_gn (c : Dev nD) : W2 m ρ c (Proc.devRef .tc main_arg16) = aGn m c := by
  rw [W2_of_ne m ρ c main_arg16 (by decide)]
  show StableHlo.after hostOps0 (W0 m ρ c) (Proc.devRef .tc main_arg16) = _
  after_results
theorem exit0_bn (c : Dev nD) : W2 m ρ c (Proc.devRef .tc main_arg17) = aBn m c := by
  rw [W2_of_ne m ρ c main_arg17 (by decide)]
  show StableHlo.after hostOps0 (W0 m ρ c) (Proc.devRef .tc main_arg17) = _
  after_results

/-! ## The second region's entry arrays -/

theorem entry1_X (c : Dev nD) : V3 m ρ c main_arg0 = aX m c := by
  show StableHlo.after hostOps1 (W2 m ρ c) (Proc.devRef .tc main_arg0) = _
  after_results
  exact exit0_X m ρ c
theorem entry1_Wsu (c : Dev nD) : V3 m ρ c main_arg10 = aWsu m c := by
  show StableHlo.after hostOps1 (W2 m ρ c) (Proc.devRef .tc main_arg10) = _
  after_results
  exact exit0_Wsu m ρ c

theorem entry1_bsu (c : Dev nD) : vec2Of (V3 m ρ c main_v26) = vecOf (aBsu m c) := by
  have h : V3 m ρ c main_v26 = shapeCast S1x64 (W2 m ρ c (Proc.devRef .tc main_arg11)) shapeCasts_S64_S1x64 := by
    show StableHlo.after hostOps1 (W2 m ρ c) (Proc.devRef .tc main_v26) = _
    after_results
    rfl
  rw [h, exit0_bsu, vec2Of_reshape]
theorem entry1_gn (c : Dev nD) : vec2Of (V3 m ρ c main_v27) = vecOf (aGn m c) := by
  have h : V3 m ρ c main_v27 = shapeCast S1x64 (W2 m ρ c (Proc.devRef .tc main_arg16)) shapeCasts_S64_S1x64 := by
    show StableHlo.after hostOps1 (W2 m ρ c) (Proc.devRef .tc main_v27) = _
    after_results
    rfl
  rw [h, exit0_gn, vec2Of_reshape]
theorem entry1_bn (c : Dev nD) : vec2Of (V3 m ρ c main_v28) = vecOf (aBn m c) := by
  have h : V3 m ρ c main_v28 = shapeCast S1x64 (W2 m ρ c (Proc.devRef .tc main_arg17)) shapeCasts_S64_S1x64 := by
    show StableHlo.after hostOps1 (W2 m ρ c) (Proc.devRef .tc main_v28) = _
    after_results
    rfl
  rw [h, exit0_bn, vec2Of_reshape]

/-- The aggregated-messages array the second region finds: the segment sum of the low columns of what the first region
    left in its messages-beside-gates array. -/
theorem entry1_ssh (c : Dev nD) (u : S1000000x128.Idx → EReal) (hu : W2 m ρ c (Proc.devRef .tc main_v20_1) = u)
    (n : Fin 100000) (k : Fin 64) :
    rowN (V3 m ρ c main_v24) n k
      = segSum (wordOf (aDst m c)) (fun e => u (ix2 e (⟨k.val, by have := k.isLt; omega⟩ : Fin 128))) n := by
  have h : V3 m ρ c main_v24 = extractStridedSlice S100000x64 ![0, 0]
      (Host.scatterAdd (F := Ideal) scatter_S100000x128_S1000000x1_S1000000x128_1_0_0_1
        (broadcastInDim S100000x128 ![] bcast_S_S100000x128 (constant (F := Ideal) S_ .f32 0x00000000#32))
        (broadcastInDim S1000000x1 ![0] bcast_S1000000_S1000000x1_0 (W2 m ρ c (Proc.devRef .tc main_arg3)))
        (W2 m ρ c (Proc.devRef .tc main_v20_1))) slices_S100000x128_S100000x64_0_0 := by
    show StableHlo.after hostOps1 (W2 m ρ c) (Proc.devRef .tc main_v24) = _
    after_results
  show V3 m ρ c main_v24 (ix2 n k) = _
  rw [h, hu, exit0_dst]
  exact seg_lo _ _ n k

/-- The aggregated-gates array: the segment sum of the high columns. -/
theorem entry1_ss (c : Dev nD) (u : S1000000x128.Idx → EReal) (hu : W2 m ρ c (Proc.devRef .tc main_v20_1) = u)
    (n : Fin 100000) (k : Fin 64) :
    rowN (V3 m ρ c main_v25) n k
      = segSum (wordOf (aDst m c)) (fun e => u (ix2 e (⟨64 + k.val, by have := k.isLt; omega⟩ : Fin 128))) n := by
  have h : V3 m ρ c main_v25 = extractStridedSlice S100000x64 ![0, 64]
      (Host.scatterAdd (F := Ideal) scatter_S100000x128_S1000000x1_S1000000x128_1_0_0_1
        (broadcastInDim S100000x128 ![] bcast_S_S100000x128 (constant (F := Ideal) S_ .f32 0x00000000#32))
        (broadcastInDim S1000000x1 ![0] bcast_S1000000_S1000000x1_0 (W2 m ρ c (Proc.devRef .tc main_arg3)))
        (W2 m ρ c (Proc.devRef .tc main_v20_1))) slices_S100000x128_S100000x64_0_64 := by
    show StableHlo.after hostOps1 (W2 m ρ c) (Proc.devRef .tc main_v25) = _
    after_results
  show V3 m ρ c main_v25 (ix2 n k) = _
  rw [h, hu, exit0_dst]
  exact seg_hi _ _ n k

end Cert.KernelIdeal.HostStretch

end
-- ==== Proof.KernelValue.lean ====
/-
  The program's two results as the specification's functions of its eighteen arguments.

  The edge result is what the first region leaves in its edge-output array: row e is the edge row function of the rows
  the region was entered with, which are the node rows the edge's wrapped index words name, the edge's own feature row
  and the weights as launched. The node result is what the second region leaves: row n is the node row function of the
  node's feature row and of the two aggregated rows, which are the segment sums over the edges whose destination word is n
  of the first region's message and gate rows.
-/
import proofs.«420971_j2594160247294_3_alg».proof.Proof.EdgeRegion
import proofs.«420971_j2594160247294_3_alg».proof.Proof.NodeRegion
import proofs.«420971_j2594160247294_3_alg».proof.Proof.SecondEntry

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.StableHlo Idealize.ShloMosaic.ValueIdx EdgeGatedConv Cert.KernelIdeal.HostStretch

variable (m : (ℓ : Loc nD τ sig) → Buf (Elt Ideal) ℓ) (ρ : Dev nD → PrngReg)

/-- The gate row of edge `e` from the first region's entry arrays is the specification's, of the arguments. -/
theorem gate_eq (c : Dev nD) (e : Fin 1000000) :
    EdgeRegion.gateV (V1 m ρ) c e = gateAt (aX m c) (aEF m c) (aSrc m c) (aDst m c) (aWsg m c) (aBsg m c) (aWdg m c) (aBdg m c) (aWeg m c) (aBeg m c) e := by
  unfold EdgeRegion.gateV gateAt
  rw [entry0_Wsg, entry0_bsg, entry0_Wdg, entry0_bdg, entry0_Weg, entry0_beg, entry0_src, entry0_dst, entry0_EF]

/-- The edge-output buffer at the last boundary is the first region's edge-output array. -/
theorem edge_buffer (c : Dev nD) :
    W4 m ρ c (Proc.devRef .tc main_v20_0) = (dat0 (F := Ideal) (V1 m ρ) c).arrAt 13 cfg0.N := by
  rw [W4_of_ne m ρ c main_v20_0 (by decide)]
  show StableHlo.after hostOps1 (W2 m ρ c) (Proc.devRef .tc main_v20_0) = _
  after_results
  exact W2_arr m ρ c 13

/-- THE EDGE RESULT. -/
theorem edge_result (c : Dev nD) (e : Fin 1000000) (k : Fin 64) :
    (W4 m ρ c (Proc.devRef .tc main_v20_0) : S1000000x64.Idx → EReal) (ix2 e k)
      = edgeOutAt (aX m c) (aEF m c) (aSrc m c) (aDst m c) (aWsg m c) (aBsg m c) (aWdg m c) (aBdg m c) (aWeg m c) (aBeg m c) (aGe m c) (aBe m c) e k := by
  refine (congrFun (edge_buffer m ρ c) (ix2 e k)).trans ?_
  refine (EdgeRegion.edge_out_at (V1 m ρ) c e k).trans ?_
  unfold edgeOutAt
  rw [entry0_Wsg, entry0_bsg, entry0_Wdg, entry0_bdg, entry0_Weg, entry0_beg, entry0_ge, entry0_be, entry0_src,
    entry0_dst, entry0_EF]

/-- The aggregated-messages row the second region finds at node `n`. -/
theorem messages_row (c : Dev nD) (n : Fin 100000) :
    rowN (V3 m ρ c main_v24) n
      = fun j => segSum (wordOf (aDst m c)) (fun e => messageAt (aX m c) (aEF m c) (aSrc m c) (aDst m c) (aWsg m c) (aBsg m c) (aWdg m c) (aBdg m c) (aWeg m c) (aBeg m c) (aWdu m c) (aBdu m c) e j) n := by
  funext j
  rw [entry1_ssh m ρ c _ (W2_arr m ρ c 14) n j]
  refine congrArg (fun f => segSum (wordOf (aDst m c)) f n) (funext fun e => ?_)
  refine (EdgeRegion.sigma_cat_lo_at (V1 m ρ) c e j).trans ?_
  unfold messageAt
  rw [gate_eq, entry0_Wdu, entry0_bdu, entry0_src]

/-- The aggregated-gates row the second region finds at node `n`. -/
theorem gates_row (c : Dev nD) (n : Fin 100000) :
    rowN (V3 m ρ c main_v25) n
      = fun j => segSum (wordOf (aDst m c)) (fun e => gateAt (aX m c) (aEF m c) (aSrc m c) (aDst m c) (aWsg m c) (aBsg m c) (aWdg m c) (aBdg m c) (aWeg m c) (aBeg m c) e j) n := by
  funext j
  rw [entry1_ss m ρ c _ (W2_arr m ρ c 14) n j]
  refine congrArg (fun f => segSum (wordOf (aDst m c)) f n) (funext fun e => ?_)
  refine (EdgeRegion.sigma_cat_hi_at (V1 m ρ) c e j).trans ?_
  rw [gate_eq]

/-- THE NODE RESULT. -/
theorem node_result (c : Dev nD) (n : Fin 100000) (k : Fin 64) :
    (W4 m ρ c (Proc.devRef .tc main_v29) : S100000x64.Idx → EReal) (ix2 n k)
      = nodeOutAt (aX m c) (aEF m c) (aSrc m c) (aDst m c) (aWsg m c) (aBsg m c) (aWdg m c) (aBdg m c) (aWeg m c) (aBeg m c) (aWsu m c) (aBsu m c) (aWdu m c) (aBdu m c) (aGn m c) (aBn m c) n k := by
  refine (congrFun (W4_arr m ρ c 7) (ix2 n k)).trans ?_
  refine (NodeRegion.node_out_at (V3 m ρ) c n k).trans ?_
  unfold nodeOutAt
  rw [entry1_Wsu, entry1_bsu, entry1_gn, entry1_bn, entry1_X, messages_row, gates_row]

end Cert.KernelIdeal.KernelValue

end
-- ==== Proof.RefRead.lean ====
/-
  The reference's two results, read at an index, are the specification's row functions of its arguments.

  The reference projects every node row first and gathers the projected rows onto the edges; a gathered row is the
  projected array's row at the node the edge's index word names, so it is the projection of that node's feature row.
  Its two segment sums are the accumulating scatter read at an index: the sum over the edges whose destination word is
  the node.
-/
import proofs.«420971_j2594160247294_3_alg».proof.Proof.Gen.ReferenceIdeal.Read
import proofs.«420971_j2594160247294_3_alg».proof.Proof.Spec
import proofs.«420971_j2594160247294_3_alg».proof.Proof.LibGatherRows
import proofs.«420971_j2594160247294_3_alg».proof.Proof.LibScatterRows
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefRead

open Cert.ReferenceIdeal Cert.ReferenceIdeal.Gen Cert.ReferenceIdeal.Read Idealize.ShloMosaic Idealize.ShloMosaic.TcCoe
open Idealize.ShloMosaic.ValueIdx EdgeGatedConv

/-- The word `0x3F800000` is the extended real one. -/
private theorem one_word : Ideal.ofBits .f32 0x3F800000#32 = 1 := by
  rw [show (1 : EReal) = ((1 : ℝ) : EReal) by norm_cast]
  simp [Ideal.ofBits, Ideal.ieee, -EReal.coe_mul]; norm_num

/-- The program's gather of rows read at `(e, k)`: the operand's row named by the start-index word of `e`. -/
private theorem gather_at {α : Type} (y : S100000x64.Idx → α) (idx : S1000000x1.Idx → BitVec 32) (e : Fin 1000000) (k : Fin 64) :
    Host.gather gather_S100000x64_S1000000x1_S1000000x64_1_0_n_n_0_1_164 y idx (ix2 e k)
      = y (ix2 (rowOfWord (idx (ix2 e (0 : Fin 1)))) k) := by
  have hd : gather_S100000x64_S1000000x1_S1000000x64_1_0_n_n_0_1_164
      = GatherRows.rowsDims 100000 1000000 64 Facts₀.gather_S100000x64_S1000000x1_S1000000x64_1_0_n_n_0_1_164_wf := rfl
  rw [hd]
  exact GatherRows.gather_rows_apply (by decide) _ y idx e k

/-- The normalised index word at an edge: the word, wrapped once by the axis length when negative. -/
private theorem v13_at (x2 : S1000000.Idx → BitVec 32) (e : Fin 1000000) :
    val_main_v13 (F := Ideal) x2 (ix2 e (0 : Fin 1)) = wrapWord (wordOf x2 e) := by
  have hi : idx_main_v13 (ix2 e (0 : Fin 1)) = ix1 e := funext fun a => Fin.ext (by match a with | ⟨0, _⟩ => rfl)
  rw [val_main_v13_apply, hi, val_main_v12_apply, val_main_v9_apply, val_main_v11_apply, val_main_v8_apply,
    val_main_v10_apply, val_main_c_apply, val_main_c_0_apply]
  rfl

/-- The normalised index word at an edge: the word, wrapped once by the axis length when negative. -/
private theorem v20_at (x3 : S1000000.Idx → BitVec 32) (e : Fin 1000000) :
    val_main_v20 (F := Ideal) x3 (ix2 e (0 : Fin 1)) = wrapWord (wordOf x3 e) := by
  have hi : idx_main_v20 (ix2 e (0 : Fin 1)) = ix1 e := funext fun a => Fin.ext (by match a with | ⟨0, _⟩ => rfl)
  rw [val_main_v20_apply, hi, val_main_v19_apply, val_main_v16_apply, val_main_v18_apply, val_main_v15_apply,
    val_main_v17_apply, val_main_c_1_apply, val_main_c_2_apply]
  rfl

/-- A node projection `X·W + b` of the reference at `(n, k)`. -/
private theorem v3_at (x0 : S100000x64.Idx → EReal) (x4 : S64x64.Idx → EReal) (x5 : S64.Idx → EReal) (n : Fin 100000) (k : Fin 64) :
    val_main_v3 (F := Ideal) x0 x4 x5 (ix2 n k) = lin (matOf x4) (vecOf x5) (rowN x0 n) k := by
  have hl : ∀ j : Fin 64, lidx_main_v0 (ix2 n k) j = ix2 n j := fun j => funext fun a => Fin.ext (by match a with | ⟨0, _⟩ => rfl | ⟨1, _⟩ => rfl)
  have hr : ∀ j : Fin 64, ridx_main_v0 (ix2 n k) j = ix2 j k := fun j => funext fun a => Fin.ext (by match a with | ⟨0, _⟩ => rfl | ⟨1, _⟩ => rfl)
  have hb : idx_main_v1 (idx_main_v2 (ix2 n k)) = ix1 k := funext fun a => Fin.ext (by match a with | ⟨0, _⟩ => rfl)
  rw [val_main_v3_apply, val_main_v0_apply, val_main_v2_apply, val_main_v1_apply, hb]
  simp only [hl, hr]
  rfl

/-- A node projection `X·W + b` of the reference at `(n, k)`. -/
private theorem v7_at (x0 : S100000x64.Idx → EReal) (x6 : S64x64.Idx → EReal) (x7 : S64.Idx → EReal) (n : Fin 100000) (k : Fin 64) :
    val_main_v7 (F := Ideal) x0 x6 x7 (ix2 n k) = lin (matOf x6) (vecOf x7) (rowN x0 n) k := by
  have hl : ∀ j : Fin 64, lidx_main_v4 (ix2 n k) j = ix2 n j := fun j => funext fun a => Fin.ext (by match a with | ⟨0, _⟩ => rfl | ⟨1, _⟩ => rfl)
  have hr : ∀ j : Fin 64, ridx_main_v4 (ix2 n k) j = ix2 j k := fun j => funext fun a => Fin.ext (by match a with | ⟨0, _⟩ => rfl | ⟨1, _⟩ => rfl)
  have hb : idx_main_v5 (idx_main_v6 (ix2 n k)) = ix1 k := funext fun a => Fin.ext (by match a with | ⟨0, _⟩ => rfl)
  rw [val_main_v7_apply, val_main_v4_apply, val_main_v6_apply, val_main_v5_apply, hb]
  simp only [hl, hr]
  rfl

/-- A gathered projected row: the projection of the node row the edge's index word names. -/
private theorem v14_at (x0 : S100000x64.Idx → EReal) (x2 : S1000000.Idx → BitVec 32) (x4 : S64x64.Idx → EReal) (x5 : S64.Idx → EReal)
    (e : Fin 1000000) (k : Fin 64) :
    val_main_v14 (F := Ideal) x0 x2 x4 x5 (ix2 e k)
      = lin (matOf x4) (vecOf x5) (rowN x0 (rowOfWord (wrapWord (wordOf x2 e)))) k := by
  unfold val_main_v14
  rw [gather_at, v13_at, v3_at]

/-- A gathered projected row: the projection of the node row the edge's index word names. -/
private theorem v21_at (x0 : S100000x64.Idx → EReal) (x3 : S1000000.Idx → BitVec 32) (x6 : S64x64.Idx → EReal) (x7 : S64.Idx → EReal)
    (e : Fin 1000000) (k : Fin 64) :
    val_main_v21 (F := Ideal) x0 x3 x6 x7 (ix2 e k)
      = lin (matOf x6) (vecOf x7) (rowN x0 (rowOfWord (wrapWord (wordOf x3 e)))) k := by
  unfold val_main_v21
  rw [gather_at, v20_at, v7_at]

/-- The edge features' projection without its bias, at `(e, k)`. -/
private theorem v23_at (x1 : S1000000x64.Idx → EReal) (x8 : S64x64.Idx → EReal) (e : Fin 1000000) (k : Fin 64) :
    val_main_v23 (F := Ideal) x1 x8 (ix2 e k) = ∑ j : Fin 64, rowE x1 e j * matOf x8 j k := by
  have hl : ∀ j : Fin 64, lidx_main_v23 (ix2 e k) j = ix2 e j := fun j => funext fun a => Fin.ext (by match a with | ⟨0, _⟩ => rfl | ⟨1, _⟩ => rfl)
  have hr : ∀ j : Fin 64, ridx_main_v23 (ix2 e k) j = ix2 j k := fun j => funext fun a => Fin.ext (by match a with | ⟨0, _⟩ => rfl | ⟨1, _⟩ => rfl)
  rw [val_main_v23_apply]
  simp only [hl, hr]
  rfl

/-- The edge projection's bias, broadcast over the edges. -/
private theorem v26_at (x9 : S64.Idx → EReal) (e : Fin 1000000) (k : Fin 64) :
    val_main_v26 (F := Ideal) x9 (ix2 e k) = vecOf x9 k := by
  have hb : idx_main_v25 (idx_main_v26 (ix2 e k)) = ix1 k := funext fun a => Fin.ext (by match a with | ⟨0, _⟩ => rfl)
  rw [val_main_v26_apply, val_main_v25_apply, hb]
  rfl

/-- The one regrouping: the reference adds the edge projection and then its bias to the two node projections' sum. -/
private theorem gate_regroup (A B M b : EReal) :
    Ideal.div 1 (1 + Ideal.exp (-(A + B + M + b))) = Ideal.logistic (A + B + (M + b)) := by
  rw [add_assoc (A + B) M b]; rfl

/-- The reference's gate at `(e, k)`. -/
private theorem v33_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) (k : Fin 64) :
    val_main_v33 (F := Ideal) x0 x1 x2 x3 x4 x5 x6 x7 x8 x9 (ix2 e k) = gateAt x0 x1 x2 x3 x4 x5 x6 x7 x8 x9 e k := by
  rw [val_main_v33_apply, val_main_v32_apply, val_main_cst_3_apply, val_main_v31_apply, val_main_v30_apply, val_main_cst_apply,
    val_main_v29_apply, val_main_v28_apply, val_main_v27_apply, val_main_v24_apply, val_main_v22_apply, v14_at, v21_at, v23_at,
    v26_at]
  simp only [Ideal.hostDivf_def, Ideal.hostUnary_exp_def, Ideal.hostNegf_def, Ideal.negf_def, Ideal.addf_def, Ideal.ofBits_def,
    one_word]
  exact gate_regroup _ _ _ _

/-- The gated edge feature row the edge LayerNorm is applied to. -/
private def edgePre (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) : Row :=
  fun j => gateAt x0 x1 x2 x3 x4 x5 x6 x7 x8 x9 e j * rowE x1 e j

/-- The reference's gated edge features at `(e, k)`. -/
private theorem v34_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) (k : Fin 64) :
    val_main_v34 (F := Ideal) x0 x1 x2 x3 x4 x5 x6 x7 x8 x9 (ix2 e k) = edgePre x0 x1 x2 x3 x4 x5 x6 x7 x8 x9 e k := by
  rw [val_main_v34_apply, v33_at]
  rfl

/-- The reference's row mean of the gated edge features. -/
private theorem v38_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) :
    val_main_v38 (F := Ideal) x0 x1 x2 x3 x4 x5 x6 x7 x8 x9 (ix2 e (0 : Fin 1)) = mean (edgePre x0 x1 x2 x3 x4 x5 x6 x7 x8 x9 e) := by
  have h36 : idx_main_v36 (ix2 e (0 : Fin 1)) = ix1 e := funext fun a => Fin.ext (by match a with | ⟨0, _⟩ => rfl)
  have h35 : ∀ j : Fin 64, idx_main_v35 (ix1 e) j = ix2 e j := fun j => funext fun a => Fin.ext (by match a with | ⟨0, _⟩ => rfl | ⟨1, _⟩ => rfl)
  rw [val_main_v38_apply, val_main_v36_apply, h36, val_main_v35_apply, val_main_v37_apply, val_main_cst_5_apply,
    val_main_cst_4_apply]
  simp only [h35, v34_at, Ideal.hostDivf_def, Ideal.ofBits_def, Ideal.ofBits_zero_f32, zero_add]
  rfl

/-- The centred gated edge features at `(e, k)`, as the variance reads them. -/
private theorem v40_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) (k : Fin 64) :
    val_main_v40 (F := Ideal) x0 x1 x2 x3 x4 x5 x6 x7 x8 x9 (ix2 e k) = edgePre x0 x1 x2 x3 x4 x5 x6 x7 x8 x9 e k - mean (edgePre x0 x1 x2 x3 x4 x5 x6 x7 x8 x9 e) := by
  have h39 : idx_main_v39 (ix2 e k) = ix2 e (0 : Fin 1) := funext fun a => Fin.ext (by match a with | ⟨0, _⟩ => rfl | ⟨1, _⟩ => rfl)
  rw [val_main_v40_apply, val_main_v39_apply, h39, v38_at, v34_at]
  rfl

/-- The centred gated edge features at `(e, k)`, as the normalisation reads them. -/
private theorem v47_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) (k : Fin 64) :
    val_main_v47 (F := Ideal) x0 x1 x2 x3 x4 x5 x6 x7 x8 x9 (ix2 e k) = edgePre x0 x1 x2 x3 x4 x5 x6 x7 x8 x9 e k - mean (edgePre x0 x1 x2 x3 x4 x5 x6 x7 x8 x9 e) := by
  have h46 : idx_main_v46 (ix2 e k) = ix2 e (0 : Fin 1) := funext fun a => Fin.ext (by match a with | ⟨0, _⟩ => rfl | ⟨1, _⟩ => rfl)
  rw [val_main_v47_apply, val_main_v46_apply, h46, v38_at, v34_at]
  rfl

/-- The reference's reciprocal standard deviation of edge row `e`. -/
private theorem v50_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (e : Fin 1000000) :
    val_main_v50 (F := Ideal) x0 x1 x2 x3 x4 x5 x6 x7 x8 x9 (ix2 e (0 : Fin 1))
      = Ideal.rsqrt (Ideal.div (∑ j : Fin 64, (edgePre x0 x1 x2 x3 x4 x5 x6 x7 x8 x9 e j - mean (edgePre x0 x1 x2 x3 x4 x5 x6 x7 x8 x9 e))
          * (edgePre x0 x1 x2 x3 x4 x5 x6 x7 x8 x9 e j - mean (edgePre x0 x1 x2 x3 x4 x5 x6 x7 x8 x9 e))) c64 + cEps) := by
  have h43 : idx_main_v43 (ix2 e (0 : Fin 1)) = ix1 e := funext fun a => Fin.ext (by match a with | ⟨0, _⟩ => rfl)
  have h42 : ∀ j : Fin 64, idx_main_v42 (ix1 e) j = ix2 e j := fun j => funext fun a => Fin.ext (by match a with | ⟨0, _⟩ => rfl | ⟨1, _⟩ => rfl)
  rw [val_main_v50_apply, val_main_v49_apply, val_main_v45_apply, val_main_v43_apply, h43, val_main_v42_apply, val_main_v44_apply,
    val_main_cst_7_apply, val_main_v48_apply, val_main_cst_8_apply, val_main_cst_6_apply]
  simp only [h42, val_main_v41_apply, v40_at, Ideal.hostDivf_def, Ideal.hostUnary_rsqrt_def, Ideal.addf_def, Ideal.mulf_def,
    Ideal.ofBits_def, Ideal.ofBits_zero_f32, zero_add]
  rfl

/-- A `[64]` array broadcast over the edges reads its column: the edge LayerNorm's scale. -/
private theorem v54_at (x14 : S64.Idx → EReal) (e : Fin 1000000) (k : Fin 64) :
    val_main_v54 (F := Ideal) x14 (ix2 e k) = vecOf x14 k := by
  have hb : idx_main_v53 (idx_main_v54 (ix2 e k)) = ix1 k := funext fun a => Fin.ext (by match a with | ⟨0, _⟩ => rfl)
  rw [val_main_v54_apply, val_main_v53_apply, hb]
  rfl

/-- The edge LayerNorm's shift, broadcast over the edges. -/
private theorem v57_at (x15 : S64.Idx → EReal) (e : Fin 1000000) (k : Fin 64) :
    val_main_v57 (F := Ideal) x15 (ix2 e k) = vecOf x15 k := by
  have hb : idx_main_v56 (idx_main_v57 (ix2 e k)) = ix1 k := funext fun a => Fin.ext (by match a with | ⟨0, _⟩ => rfl)
  rw [val_main_v57_apply, val_main_v56_apply, hb]
  rfl

/-- The reference's edge result at `(e, k)`. -/
theorem edge_ref_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 x14 x15 : S64.Idx → EReal) (e : Fin 1000000) (k : Fin 64) :
    val_main_v58 (F := Ideal) x0 x1 x2 x3 x4 x5 x6 x7 x8 x9 x14 x15 (ix2 e k)
      = edgeOutAt x0 x1 x2 x3 x4 x5 x6 x7 x8 x9 x14 x15 e k := by
  have h51 : idx_main_v51 (ix2 e k) = ix2 e (0 : Fin 1) := funext fun a => Fin.ext (by match a with | ⟨0, _⟩ => rfl | ⟨1, _⟩ => rfl)
  rw [val_main_v58_apply, val_main_v55_apply, val_main_v52_apply, val_main_v51_apply, h51, v47_at, v50_at, v54_at, v57_at]
  rfl

/-- The normalised index word at an edge: the word, wrapped once by the axis length when negative. -/
private theorem v68_at (x2 : S1000000.Idx → BitVec 32) (e : Fin 1000000) :
    val_main_v68 (F := Ideal) x2 (ix2 e (0 : Fin 1)) = wrapWord (wordOf x2 e) := by
  have hi : idx_main_v68 (ix2 e (0 : Fin 1)) = ix1 e := funext fun a => Fin.ext (by match a with | ⟨0, _⟩ => rfl)
  rw [val_main_v68_apply, hi, val_main_v67_apply, val_main_v64_apply, val_main_v66_apply, val_main_v63_apply,
    val_main_v65_apply, val_main_c_9_apply, val_main_c_10_apply]
  rfl

/-- A node projection `X·W + b` of the reference at `(n, k)`. -/
private theorem v62_at (x0 : S100000x64.Idx → EReal) (x12 : S64x64.Idx → EReal) (x13 : S64.Idx → EReal) (n : Fin 100000) (k : Fin 64) :
    val_main_v62 (F := Ideal) x0 x12 x13 (ix2 n k) = lin (matOf x12) (vecOf x13) (rowN x0 n) k := by
  have hl : ∀ j : Fin 64, lidx_main_v59 (ix2 n k) j = ix2 n j := fun j => funext fun a => Fin.ext (by match a with | ⟨0, _⟩ => rfl | ⟨1, _⟩ => rfl)
  have hr : ∀ j : Fin 64, ridx_main_v59 (ix2 n k) j = ix2 j k := fun j => funext fun a => Fin.ext (by match a with | ⟨0, _⟩ => rfl | ⟨1, _⟩ => rfl)
  have hb : idx_main_v60 (idx_main_v61 (ix2 n k)) = ix1 k := funext fun a => Fin.ext (by match a with | ⟨0, _⟩ => rfl)
  rw [val_main_v62_apply, val_main_v59_apply, val_main_v61_apply, val_main_v60_apply, hb]
  simp only [hl, hr]
  rfl

/-- A gathered projected row: the projection of the node row the edge's index word names. -/
private theorem v69_at (x0 : S100000x64.Idx → EReal) (x2 : S1000000.Idx → BitVec 32) (x12 : S64x64.Idx → EReal) (x13 : S64.Idx → EReal)
    (e : Fin 1000000) (k : Fin 64) :
    val_main_v69 (F := Ideal) x0 x2 x12 x13 (ix2 e k)
      = lin (matOf x12) (vecOf x13) (rowN x0 (rowOfWord (wrapWord (wordOf x2 e)))) k := by
  unfold val_main_v69
  rw [gather_at, v68_at, v62_at]

/-- A node projection `X·W + b` of the reference at `(n, k)`. -/
private theorem v83_at (x0 : S100000x64.Idx → EReal) (x10 : S64x64.Idx → EReal) (x11 : S64.Idx → EReal) (n : Fin 100000) (k : Fin 64) :
    val_main_v83 (F := Ideal) x0 x10 x11 (ix2 n k) = lin (matOf x10) (vecOf x11) (rowN x0 n) k := by
  have hl : ∀ j : Fin 64, lidx_main_v80 (ix2 n k) j = ix2 n j := fun j => funext fun a => Fin.ext (by match a with | ⟨0, _⟩ => rfl | ⟨1, _⟩ => rfl)
  have hr : ∀ j : Fin 64, ridx_main_v80 (ix2 n k) j = ix2 j k := fun j => funext fun a => Fin.ext (by match a with | ⟨0, _⟩ => rfl | ⟨1, _⟩ => rfl)
  have hb : idx_main_v81 (idx_main_v82 (ix2 n k)) = ix1 k := funext fun a => Fin.ext (by match a with | ⟨0, _⟩ => rfl)
  rw [val_main_v83_apply, val_main_v80_apply, val_main_v82_apply, val_main_v81_apply, hb]
  simp only [hl, hr]
  rfl

/-- The reference's message at `(e, k)`: the gathered update projection of the source row times the gate. -/
private theorem v70_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x12 : S64x64.Idx → EReal) (x13 : S64.Idx → EReal) (e : Fin 1000000) (k : Fin 64) :
    val_main_v70 (F := Ideal) x0 x1 x2 x3 x4 x5 x6 x7 x8 x9 x12 x13 (ix2 e k) = messageAt x0 x1 x2 x3 x4 x5 x6 x7 x8 x9 x12 x13 e k := by
  rw [val_main_v70_apply, v69_at, v33_at]
  rfl

/-- The program's accumulating scatter of rows read at `(n, k)`: the operand's element plus the sum of the updates'
    column `k` over the edges whose index word is `n`. -/
private theorem scatter_at (z : S100000x64.Idx → EReal) (idx : S1000000x1.Idx → BitVec 32) (upd : S1000000x64.Idx → EReal)
    (n : Fin 100000) (k : Fin 64) :
    Host.scatterAdd (F := Ideal) (φ := .f32) scatter_S100000x64_S1000000x1_S1000000x64_1_0_0_1 z idx upd (ix2 n k)
      = z (ix2 n k) + ∑ e : Fin 1000000, if (idx (ix2 e (0 : Fin 1))).toInt = (n.val : Int) then upd (ix2 e k) else 0 := by
  have hd : scatter_S100000x64_S1000000x1_S1000000x64_1_0_0_1
      = ScatterRows.rowsDims 100000 1000000 64 Facts₀.scatter_S100000x64_S1000000x1_S1000000x64_1_0_0_1_wf := rfl
  unfold Host.scatterAdd
  rw [Ideal.hostScatterAdd_def, hd]
  exact ScatterRows.scatterAdd_rows_apply _ z idx upd n k

/-- The destination words as the first scatter's index array. -/
private theorem v72_at (x3 : S1000000.Idx → BitVec 32) (e : Fin 1000000) :
    val_main_v72 (F := Ideal) x3 (ix2 e (0 : Fin 1)) = wordOf x3 e := by
  have hi : idx_main_v72 (ix2 e (0 : Fin 1)) = ix1 e := funext fun a => Fin.ext (by match a with | ⟨0, _⟩ => rfl)
  rw [val_main_v72_apply, hi]
  rfl

/-- The destination words as the second scatter's index array. -/
private theorem v75_at (x3 : S1000000.Idx → BitVec 32) (e : Fin 1000000) :
    val_main_v75 (F := Ideal) x3 (ix2 e (0 : Fin 1)) = wordOf x3 e := by
  have hi : idx_main_v75 (ix2 e (0 : Fin 1)) = ix1 e := funext fun a => Fin.ext (by match a with | ⟨0, _⟩ => rfl)
  rw [val_main_v75_apply, hi]
  rfl

/-- The reference's aggregated messages at `(n, k)`: the segment sum over the edges whose destination word is `n`. -/
private theorem v73_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x12 : S64x64.Idx → EReal) (x13 : S64.Idx → EReal) (n : Fin 100000) (k : Fin 64) :
    val_main_v73 (F := Ideal) x0 x1 x2 x3 x4 x5 x6 x7 x8 x9 x12 x13 (ix2 n k)
      = segSum (wordOf x3) (fun e => messageAt x0 x1 x2 x3 x4 x5 x6 x7 x8 x9 x12 x13 e k) n := by
  unfold val_main_v73
  rw [scatter_at, val_main_v71_apply, val_main_cst_11_apply]
  simp only [v72_at, v70_at]
  rfl

/-- The reference's aggregated gates at `(n, k)`. -/
private theorem v76_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (n : Fin 100000) (k : Fin 64) :
    val_main_v76 (F := Ideal) x0 x1 x2 x3 x4 x5 x6 x7 x8 x9 (ix2 n k)
      = segSum (wordOf x3) (fun e => gateAt x0 x1 x2 x3 x4 x5 x6 x7 x8 x9 e k) n := by
  unfold val_main_v76
  rw [scatter_at, val_main_v74_apply, val_main_cst_12_apply]
  simp only [v75_at, v33_at]
  rfl

/-- The node row the node LayerNorm is applied to: the node's own update projection plus the normalised aggregate. -/
private def nodePre (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) : Row :=
  fun j => lin (matOf x10) (vecOf x11) (rowN x0 n) j
    + Ideal.div (segSum (wordOf x3) (fun e => messageAt x0 x1 x2 x3 x4 x5 x6 x7 x8 x9 x12 x13 e j) n)
        (segSum (wordOf x3) (fun e => gateAt x0 x1 x2 x3 x4 x5 x6 x7 x8 x9 e j) n + cTiny)

/-- The reference's node row before its LayerNorm, at `(n, k)`. -/
private theorem v84_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) (k : Fin 64) :
    val_main_v84 (F := Ideal) x0 x1 x2 x3 x4 x5 x6 x7 x8 x9 x10 x11 x12 x13 (ix2 n k) = nodePre x0 x1 x2 x3 x4 x5 x6 x7 x8 x9 x10 x11 x12 x13 n k := by
  rw [val_main_v84_apply, v83_at, val_main_v79_apply, v73_at, val_main_v78_apply, v76_at, val_main_v77_apply,
    val_main_cst_13_apply]
  rfl

/-- The reference's row mean of the node row before its LayerNorm. -/
private theorem v88_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) :
    val_main_v88 (F := Ideal) x0 x1 x2 x3 x4 x5 x6 x7 x8 x9 x10 x11 x12 x13 (ix2 n (0 : Fin 1)) = mean (nodePre x0 x1 x2 x3 x4 x5 x6 x7 x8 x9 x10 x11 x12 x13 n) := by
  have h86 : idx_main_v86 (ix2 n (0 : Fin 1)) = ix1 n := funext fun a => Fin.ext (by match a with | ⟨0, _⟩ => rfl)
  have h85 : ∀ j : Fin 64, idx_main_v85 (ix1 n) j = ix2 n j := fun j => funext fun a => Fin.ext (by match a with | ⟨0, _⟩ => rfl | ⟨1, _⟩ => rfl)
  rw [val_main_v88_apply, val_main_v86_apply, h86, val_main_v85_apply, val_main_v87_apply, val_main_cst_15_apply,
    val_main_cst_14_apply]
  simp only [h85, v84_at, Ideal.hostDivf_def, Ideal.ofBits_def, Ideal.ofBits_zero_f32, zero_add]
  rfl

/-- The centred node row at `(n, k)`, as the variance reads it. -/
private theorem v90_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) (k : Fin 64) :
    val_main_v90 (F := Ideal) x0 x1 x2 x3 x4 x5 x6 x7 x8 x9 x10 x11 x12 x13 (ix2 n k) = nodePre x0 x1 x2 x3 x4 x5 x6 x7 x8 x9 x10 x11 x12 x13 n k - mean (nodePre x0 x1 x2 x3 x4 x5 x6 x7 x8 x9 x10 x11 x12 x13 n) := by
  have h89 : idx_main_v89 (ix2 n k) = ix2 n (0 : Fin 1) := funext fun a => Fin.ext (by match a with | ⟨0, _⟩ => rfl | ⟨1, _⟩ => rfl)
  rw [val_main_v90_apply, val_main_v89_apply, h89, v88_at, v84_at]
  rfl

/-- The centred node row at `(n, k)`, as the normalisation reads it. -/
private theorem v97_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) (k : Fin 64) :
    val_main_v97 (F := Ideal) x0 x1 x2 x3 x4 x5 x6 x7 x8 x9 x10 x11 x12 x13 (ix2 n k) = nodePre x0 x1 x2 x3 x4 x5 x6 x7 x8 x9 x10 x11 x12 x13 n k - mean (nodePre x0 x1 x2 x3 x4 x5 x6 x7 x8 x9 x10 x11 x12 x13 n) := by
  have h96 : idx_main_v96 (ix2 n k) = ix2 n (0 : Fin 1) := funext fun a => Fin.ext (by match a with | ⟨0, _⟩ => rfl | ⟨1, _⟩ => rfl)
  rw [val_main_v97_apply, val_main_v96_apply, h96, v88_at, v84_at]
  rfl

/-- The reference's reciprocal standard deviation of node row `n`. -/
private theorem v100_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal)
    (x10 : S64x64.Idx → EReal) (x11 : S64.Idx → EReal) (x12 : S64x64.Idx → EReal) (x13 : S64.Idx → EReal) (n : Fin 100000) :
    val_main_v100 (F := Ideal) x0 x1 x2 x3 x4 x5 x6 x7 x8 x9 x10 x11 x12 x13 (ix2 n (0 : Fin 1))
      = Ideal.rsqrt (Ideal.div (∑ j : Fin 64, (nodePre x0 x1 x2 x3 x4 x5 x6 x7 x8 x9 x10 x11 x12 x13 n j - mean (nodePre x0 x1 x2 x3 x4 x5 x6 x7 x8 x9 x10 x11 x12 x13 n))
          * (nodePre x0 x1 x2 x3 x4 x5 x6 x7 x8 x9 x10 x11 x12 x13 n j - mean (nodePre x0 x1 x2 x3 x4 x5 x6 x7 x8 x9 x10 x11 x12 x13 n))) c64 + cEps) := by
  have h93 : idx_main_v93 (ix2 n (0 : Fin 1)) = ix1 n := funext fun a => Fin.ext (by match a with | ⟨0, _⟩ => rfl)
  have h92 : ∀ j : Fin 64, idx_main_v92 (ix1 n) j = ix2 n j := fun j => funext fun a => Fin.ext (by match a with | ⟨0, _⟩ => rfl | ⟨1, _⟩ => rfl)
  rw [val_main_v100_apply, val_main_v99_apply, val_main_v95_apply, val_main_v93_apply, h93, val_main_v92_apply,
    val_main_v94_apply, val_main_cst_17_apply, val_main_v98_apply, val_main_cst_18_apply, val_main_cst_16_apply]
  simp only [h92, val_main_v91_apply, v90_at, Ideal.hostDivf_def, Ideal.hostUnary_rsqrt_def, Ideal.addf_def, Ideal.mulf_def,
    Ideal.ofBits_def, Ideal.ofBits_zero_f32, zero_add]
  rfl

/-- The node LayerNorm's scale, broadcast over the nodes. -/
private theorem v104_at (x16 : S64.Idx → EReal) (n : Fin 100000) (k : Fin 64) :
    val_main_v104 (F := Ideal) x16 (ix2 n k) = vecOf x16 k := by
  have hb : idx_main_v103 (idx_main_v104 (ix2 n k)) = ix1 k := funext fun a => Fin.ext (by match a with | ⟨0, _⟩ => rfl)
  rw [val_main_v104_apply, val_main_v103_apply, hb]
  rfl

/-- The node LayerNorm's shift, broadcast over the nodes. -/
private theorem v107_at (x17 : S64.Idx → EReal) (n : Fin 100000) (k : Fin 64) :
    val_main_v107 (F := Ideal) x17 (ix2 n k) = vecOf x17 k := by
  have hb : idx_main_v106 (idx_main_v107 (ix2 n k)) = ix1 k := funext fun a => Fin.ext (by match a with | ⟨0, _⟩ => rfl)
  rw [val_main_v107_apply, val_main_v106_apply, hb]
  rfl

/-- The reference's node result at `(n, k)`. -/
theorem node_ref_at (x0 : S100000x64.Idx → EReal) (x1 : S1000000x64.Idx → EReal) (x2 x3 : S1000000.Idx → BitVec 32)
    (x4 : S64x64.Idx → EReal) (x5 : S64.Idx → EReal) (x6 : S64x64.Idx → EReal) (x7 : S64.Idx → EReal)
    (x8 : S64x64.Idx → EReal) (x9 : S64.Idx → EReal) (x10 : S64x64.Idx → EReal) (x11 : S64.Idx → EReal)
    (x12 : S64x64.Idx → EReal) (x13 x16 x17 : S64.Idx → EReal) (n : Fin 100000) (k : Fin 64) :
    val_main_v108 (F := Ideal) x0 x1 x2 x3 x4 x5 x6 x7 x8 x9 x10 x11 x12 x13 x16 x17 (ix2 n k)
      = nodeOutAt x0 x1 x2 x3 x4 x5 x6 x7 x8 x9 x10 x11 x12 x13 x16 x17 n k := by
  have h101 : idx_main_v101 (ix2 n k) = ix2 n (0 : Fin 1) := funext fun a => Fin.ext (by match a with | ⟨0, _⟩ => rfl | ⟨1, _⟩ => rfl)
  rw [val_main_v108_apply, val_main_v105_apply, val_main_v102_apply, val_main_v101_apply, h101, v97_at, v100_at, v104_at, v107_at]
  rfl

end Cert.ReferenceIdeal.RefRead

end
-- ==== Proof.Claims.lean ====
/-
  The five claims.

  The three frames are the generated ones (the reference's is its generated run with the results dropped) and the
  idealization rewrote nothing. For the algebraic claim both programs' runs are re-posted with the SAME two functions
  of the kernel's argument arrays: the node output and the edge output of an edge-gated graph convolution, each row a
  LayerNorm (see the specification module). The kernel's run reaches them through its two regions' arrays; the
  reference's through its operations read one at a time; the arguments agree by hypothesis.
-/
import proofs.«420971_j2594160247294_3_alg».proof.Defs
import proofs.«420971_j2594160247294_3_alg».proof.Proof.Gen.Kernel
import proofs.«420971_j2594160247294_3_alg».proof.Proof.Gen.Kernel.Frame
import proofs.«420971_j2594160247294_3_alg».proof.Proof.Gen.KernelIdeal
import proofs.«420971_j2594160247294_3_alg».proof.Proof.Gen.KernelIdeal.Frame
import proofs.«420971_j2594160247294_3_alg».proof.Proof.Gen.ReferenceIdeal
import proofs.«420971_j2594160247294_3_alg».proof.Proof.Gen.ReferenceIdeal.Run
import proofs.«420971_j2594160247294_3_alg».proof.Proof.Gen.ReferenceIdeal.Read
import proofs.«420971_j2594160247294_3_alg».proof.Proof.Gen.Pre_finite_inputs
import proofs.«420971_j2594160247294_3_alg».proof.Proof.KernelRun
import proofs.«420971_j2594160247294_3_alg».proof.Proof.KernelValue
import proofs.«420971_j2594160247294_3_alg».proof.Proof.RefRead

set_option maxRecDepth 16384

noncomputable section

namespace Cert.Proof.Claims

open Idealize.ShloMosaic Idealize.ShloMosaic.TcCoe Idealize.SL.Sem
open Idealize.ShloMosaic.ValueIdx EdgeGatedConv

/-- Two rank-2 arrays that agree at every pair of coordinates are equal. -/
theorem ext_ix2 {n0 n1 : Nat} {f g : (⟨2, ![n0, n1]⟩ : Shape).Idx → EReal}
    (h : ∀ (a : Fin n0) (b : Fin n1), f (ix2 a b) = g (ix2 a b)) : f = g :=
  funext fun i => by rw [eq_ix2 i]; exact h _ _

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both programs end with the node output and the edge output of the specification, of the kernel's arguments. -/
theorem algebraic : Cert.algebraic_KernelIdeal_ReferenceIdeal := by
  intro m ρ m' ρ' _ hagree
  refine ⟨fun c => nodeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => edgeOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run Cert.KernelIdeal.defs _ _).mono (fun r h c => ?_) (Cert.KernelIdeal.Launched.run_results (F := Ideal) m ρ)
    obtain ⟨h29, h20, hargs⟩ := h c
    refine ⟨h29.trans ?_, h20.trans ?_, hargs⟩
    · refine ext_ix2 (n0 := 100000) (n1 := 64) fun n k => ?_
      beta_reduce
      rw [nodeOut_ix2]
      exact Cert.KernelIdeal.KernelValue.node_result m ρ c n k
    · refine ext_ix2 (n0 := 1000000) (n1 := 64) fun e k => ?_
      beta_reduce
      rw [edgeOut_ix2]
      exact Cert.KernelIdeal.KernelValue.edge_result m ρ c e k
  · refine (θ_run Cert.ReferenceIdeal.defs _ _).mono (fun r h c => ?_) (Cert.ReferenceIdeal.Value.run (F := Ideal) m' ρ')
    obtain ⟨h108, h58, hargs⟩ := h c
    obtain ⟨a0, a1, a2, a3, a4, a5, a6, a7, a8, a9, a10, a11, a12, a13, a14, a15, a16, a17⟩ := hagree c
    refine ⟨h108.trans ?_, h58.trans ?_, hargs⟩
    · refine (Cert.ReferenceIdeal.Read.val_main_v108_eq m' c).trans (ext_ix2 (n0 := 100000) (n1 := 64) fun n k => ?_)
      beta_reduce
      rw [Cert.ReferenceIdeal.RefRead.node_ref_at, nodeOut_ix2, a0, a1, a2, a3, a4, a5, a6, a7, a8, a9, a10, a11, a12, a13, a16, a17]
    · refine (Cert.ReferenceIdeal.Read.val_main_v58_eq m' c).trans (ext_ix2 (n0 := 1000000) (n1 := 64) fun e k => ?_)
      beta_reduce
      rw [Cert.ReferenceIdeal.RefRead.edge_ref_at, edgeOut_ix2, a0, a1, a2, a3, a4, a5, a6, a7, a8, a9, a14, a15]

end Cert.Proof.Claims

end
-- ==== Proof.lean ====
/-
  The certificate of an edge-gated graph convolution: the kernel program (two tiled regions around a gather, a
  segment sum and its two slices on the host) against the plain reference.

  Every edge e gates its feature row by the logistic of three projected rows (its source node's, its destination
  node's and its own), and sends its source node's projected row times that gate to its destination node; the edge
  output is the LayerNorm of the gated edge features; the node output is the LayerNorm of the node's own projection plus
  the quotient of the summed messages by the summed gates plus 1e-8. The kernel gathers the raw node rows and projects
  them inside its first region where the reference projects all nodes and gathers the projections; it sums one
  concatenated array where the reference sums two; at the exact-real reading these are the same functions of the
  arguments, row by row, with no algebra beyond one regrouping of a sum.

  Proof/Spec states those row functions; Proof/EdgeRegion and Proof/NodeRegion read the kernel's two regions;
  Proof/HostStretch and Proof/SecondEntry the host operations around them (with Proof/LibGatherRows and
  Proof/LibScatterRows for the gather and the accumulating scatter read at an index); Proof/KernelRun the whole run
  with both results named; Proof/KernelValue puts them together; Proof/RefRead reads the reference; Proof/Claims proves
  the five claims, assembled here behind the witnesses of the programs' stated facts.
-/
import proofs.«420971_j2594160247294_3_alg».proof.Defs
import proofs.«420971_j2594160247294_3_alg».proof.Proof.Claims
import proofs.«420971_j2594160247294_3_alg».proof.Proof.Gen.Kernel
import proofs.«420971_j2594160247294_3_alg».proof.Proof.Gen.Kernel.Skeleton
import proofs.«420971_j2594160247294_3_alg».proof.Proof.Gen.Kernel.Launch
import proofs.«420971_j2594160247294_3_alg».proof.Proof.Gen.Kernel.Points
import proofs.«420971_j2594160247294_3_alg».proof.Proof.Gen.Kernel.Frame
import proofs.«420971_j2594160247294_3_alg».proof.Proof.Gen.KernelIdeal
import proofs.«420971_j2594160247294_3_alg».proof.Proof.Gen.KernelIdeal.Skeleton
import proofs.«420971_j2594160247294_3_alg».proof.Proof.Gen.KernelIdeal.Launch
import proofs.«420971_j2594160247294_3_alg».proof.Proof.Gen.KernelIdeal.Points
import proofs.«420971_j2594160247294_3_alg».proof.Proof.Gen.KernelIdeal.Frame
import proofs.«420971_j2594160247294_3_alg».proof.Proof.Gen.ReferenceIdeal
import proofs.«420971_j2594160247294_3_alg».proof.Proof.Gen.ReferenceIdeal.Run
import proofs.«420971_j2594160247294_3_alg».proof.Proof.Gen.ReferenceIdeal.Read
import proofs.«420971_j2594160247294_3_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
